-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x32 : Shape := ⟨2, ![524288, 32]⟩
abbrev S524288x64 : Shape := ⟨2, ![524288, 64]⟩
abbrev S128x32 : Shape := ⟨2, ![128, 32]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S524288x32 : S_.BroadcastsInDim S524288x32 (![] : Fin 0 → Fin S524288x32.rank)
  reducesTo_S524288x32_S_d0_1 : S524288x32.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x128 .f32) (main_arg8 : FVec F S64 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S128x64 .f32) (main_arg5 : FVec F S128x128 .f32) (main_arg6 : FVec F S128 .f32) (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S524288x32 .f32) (main_arg1 : FVec F S524288x64 .f32) (main_arg2 : FVec F S128x32 .f32) (main_arg3 : FVec F S128 .f32) (main_arg4 : FVec F S128x64 .f32) (main_arg5 : FVec F S128x128 .f32) (main_arg6 : FVec F S128 .f32) (main_arg7 : FVec F S64x128 .f32) (main_arg8 : FVec F S64 .f32) : IVec S_ 1 :=
  let main_v0 : FVec F S524288x32 .f32 := Host.absf main_arg0
  let main_cst : FVec F S_ .f32 := constant S_ .f32 0x7F800000#32
  let main_v1 : FVec F S524288x32 .f32 := broadcastInDim S524288x32 ![] bcast_S_S524288x32 main_cst
  let main_v2 : IVec S524288x32 1 := cmpf .olt main_v0 main_v1
  let main_c : IVec S_ 1 := constantI S_ 1 1#1
  let main_v3 : IVec S_ 1 := (fun x v => Host.reduce IntOp.andi x v reducesTo_S524288x32_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S524288x32 : Shape := ⟨2, ![524288, 32]⟩
abbrev S524288x64 : Shape := ⟨2, ![524288, 64]⟩
abbrev S128x32 : Shape := ⟨2, ![128, 32]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S64 : Shape := ⟨1, ![64]⟩
abbrev S32 : Shape := ⟨1, ![32]⟩
abbrev S_ : Shape := ⟨0, ![]⟩
abbrev S128x1 : Shape := ⟨2, ![128, 1]⟩
abbrev S1x32 : Shape := ⟨2, ![1, 32]⟩
abbrev S1x128 : Shape := ⟨2, ![1, 128]⟩
abbrev S64x1 : Shape := ⟨2, ![64, 1]⟩
abbrev S1x64 : Shape := ⟨2, ![1, 64]⟩
abbrev S524288x1 : Shape := ⟨2, ![524288, 1]⟩
abbrev S4096x32 : Shape := ⟨2, ![4096, 32]⟩
abbrev S4096x64 : Shape := ⟨2, ![4096, 64]⟩
abbrev S4096x1 : Shape := ⟨2, ![4096, 1]⟩
abbrev S4096x128 : Shape := ⟨2, ![4096, 128]⟩
abbrev S4096 : Shape := ⟨1, ![4096]⟩

abbrev nBuf : Space → Nat
  | .hbm => 85
  | .vmem => 15
  | .smem => 0
  | _ => 0

abbrev bufTy : (tb : Table) → Fin (tcTables nBuf tb) → BufTy
  | .hbm, ⟨0, _⟩ => ⟨S524288x32, .f32⟩
  | .hbm, ⟨1, _⟩ => ⟨S524288x64, .f32⟩
  | .hbm, ⟨2, _⟩ => ⟨S128x32, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S32, .i32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S_, .i1⟩
  | .hbm, ⟨27, _⟩ => ⟨S128, .i1⟩
  | .hbm, ⟨28, _⟩ => ⟨S128, .i1⟩
  | .hbm, ⟨29, _⟩ => ⟨S128, .i1⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S_, .i1⟩
  | .hbm, ⟨50, _⟩ => ⟨S64, .i1⟩
  | .hbm, ⟨51, _⟩ => ⟨S64, .i1⟩
  | .hbm, ⟨52, _⟩ => ⟨S64, .i1⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S128x1, .i32⟩
  | .hbm, ⟨60, _⟩ => ⟨S1x32, .i32⟩
  | .hbm, ⟨61, _⟩ => ⟨S128x32, .i32⟩
  | .hbm, ⟨62, _⟩ => ⟨S128x32, .i32⟩
  | .hbm, ⟨63, _⟩ => ⟨S128x32, .i1⟩
  | .hbm, ⟨64, _⟩ => ⟨S128x32, .f32⟩
  | .hbm, ⟨65, _⟩ => ⟨S128x1, .i32⟩
  | .hbm, ⟨66, _⟩ => ⟨S1x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S128x128, .f32⟩
  | .hbm, ⟨71, _⟩ => ⟨S64x1, .i32⟩
  | .hbm, ⟨72, _⟩ => ⟨S1x128, .i32⟩
  | .hbm, ⟨73, _⟩ => ⟨S64x128, .i32⟩
  | .hbm, ⟨74, _⟩ => ⟨S64x128, .i32⟩
  | .hbm, ⟨75, _⟩ => ⟨S64x128, .i1⟩
  | .hbm, ⟨76, _⟩ => ⟨S64x128, .f32⟩
  | .hbm, ⟨77, _⟩ => ⟨S128x32, .f32⟩
  | .hbm, ⟨78, _⟩ => ⟨S128x128, .f32⟩
  | .hbm, ⟨79, _⟩ => ⟨S64x128, .f32⟩
  | .hbm, ⟨80, _⟩ => ⟨S1x128, .f32⟩
  | .hbm, ⟨81, _⟩ => ⟨S1x128, .f32⟩
  | .hbm, ⟨82, _⟩ => ⟨S1x64, .f32⟩
  | .hbm, ⟨83, _⟩ => ⟨S524288x32, .f32⟩
  | .hbm, ⟨84, _⟩ => ⟨S524288x1, .f32⟩
  | .local _ .vmem, ⟨0, _⟩ => ⟨S4096x32, .f32⟩
  | .local _ .vmem, ⟨1, _⟩ => ⟨S4096x32, .f32⟩
  | .local _ .vmem, ⟨2, _⟩ => ⟨S4096x64, .f32⟩
  | .local _ .vmem, ⟨3, _⟩ => ⟨S4096x64, .f32⟩
  | .local _ .vmem, ⟨4, _⟩ => ⟨S128x32, .f32⟩
  | .local _ .vmem, ⟨5, _⟩ => ⟨S128x64, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S64x128, .f32⟩
  | .local _ .vmem, ⟨10, _⟩ => ⟨S1x64, .f32⟩
  | .local _ .vmem, ⟨11, _⟩ => ⟨S4096x32, .f32⟩
  | .local _ .vmem, ⟨12, _⟩ => ⟨S4096x32, .f32⟩
  | .local _ .vmem, ⟨13, _⟩ => ⟨S4096x1, .f32⟩
  | .local _ .vmem, ⟨14, _⟩ => ⟨S4096x1, .f32⟩
  | _, _ => ⟨S524288x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v4 : Ref sig .tc := ⟨.hbm, 55, rfl⟩
abbrev main_c_1 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31_0 : Ref sig .tc := ⟨.hbm, 83, rfl⟩
abbrev main_v31_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S128 : S_.BroadcastsInDim S128 (![] : Fin 0 → Fin S128.rank)
  bcast_S_S64 : S_.BroadcastsInDim S64 (![] : Fin 0 → Fin S64.rank)
  bcast_S128_S128x1_0 : S128.BroadcastsInDim S128x1 (![0] : Fin 1 → Fin S128x1.rank)
  bcast_S32_S1x32_1 : S32.BroadcastsInDim S1x32 (![1] : Fin 1 → Fin S1x32.rank)
  bcast_S128x1_S128x32_0_1 : S128x1.BroadcastsInDim S128x32 (![0, 1] : Fin 2 → Fin S128x32.rank)
  bcast_S1x32_S128x32_0_1 : S1x32.BroadcastsInDim S128x32 (![0, 1] : Fin 2 → Fin S128x32.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  shapeCasts_S128_S1x128 : S128.ShapeCasts S1x128
  shapeCasts_S64_S1x64 : S64.ShapeCasts S1x64
  inb_S4096x32_S4096x32_0_0 : ∀ a, (![0, 0] : Fin 2 → Nat) a + S4096x32.size a ≤ S4096x32.size a
  h_S4096x32 : 0 < S4096x32.numel
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x64_S128x64_0_0 : ∀ a, (![0, 0] : Fin 2 → Nat) a + S128x64.size a ≤ S128x64.size a
  h_S128x64 : 0 < S128x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x128_S4096x128 : S1x128.Broadcasts S4096x128
  broadcasts_S1x64_S4096x64 : S1x64.Broadcasts S4096x64
  slices_S4096x64_o0_0_S4096x32 : S4096x64.Slices ![0, 0] S4096x32
  slices_S4096x64_o0_32_S4096x32 : S4096x64.Slices ![0, 32] S4096x32
  reduces_S4096x32_S4096 : S4096x32.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  dot_S4096x32_S128x32_S4096x128_1_1_0_0_n_n_wf : DotDims.WF S4096x32 S128x32 S4096x128 [1] [1] [0] [0] [] []
  dot_S4096x64_S128x64_S4096x128_1_1_0_0_n_n_wf : DotDims.WF S4096x64 S128x64 S4096x128 [1] [1] [0] [0] [] []
  dot_S4096x128_S128x128_S4096x128_1_1_0_0_n_n_wf : DotDims.WF S4096x128 S128x128 S4096x128 [1] [1] [0] [0] [] []
  dot_S4096x128_S64x128_S4096x64_1_1_0_0_n_n_wf : DotDims.WF S4096x128 S64x128 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S524288x32.size a
  hwx0_0 : ∀ i : grid0.Coords, EltTy.bits .f32 = 32 ∨ (Rect.block (s := S524288x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x32.size a ≤ S524288x32.size a
  hwx0_9 : ∀ i : grid0.Coords, EltTy.bits .f32 = 32 ∨ (Rect.block (s := S524288x32) S4096x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S524288x1.size a
  hwx0_10 : ∀ i : grid0.Coords, EltTy.bits .f32 = 32 ∨ (Rect.block (s := S524288x1) S4096x1.size (cc0_transform_10 i) (hinb0_10 i)).WholeWords (EltTy.packing .f32)

variable [Facts₀]

def dot_S4096x32_S128x32_S4096x128_1_1_0_0_n_n : DotDims S4096x32 S128x32 S4096x128 where
  lhsContracting := [1]
  rhsContracting := [1]
  lhsNonContracting := [0]
  rhsNonContracting := [0]
  lhsBatch := []
  rhsBatch := []
  wf := dot_S4096x32_S128x32_S4096x128_1_1_0_0_n_n_wf
def dot_S4096x64_S128x64_S4096x128_1_1_0_0_n_n : DotDims S4096x64 S128x64 S4096x128 where
  lhsContracting := [1]
  rhsContracting := [1]
  lhsNonContracting := [0]
  rhsNonContracting := [0]
  lhsBatch := []
  rhsBatch := []
  wf := dot_S4096x64_S128x64_S4096x128_1_1_0_0_n_n_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S4096x128_S64x128_S4096x64_1_1_0_0_n_n : DotDims S4096x128 S64x128 S4096x64 where
  lhsContracting := [1]
  rhsContracting := [1]
  lhsNonContracting := [0]
  rhsNonContracting := [0]
  lhsBatch := []
  rhsBatch := []
  wf := dot_S4096x128_S64x128_S4096x64_1_1_0_0_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31_0) S4096x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v31_1) S4096x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S524288x32 : Shape := ⟨2, ![524288, 32]⟩
abbrev S524288x64 : Shape := ⟨2, ![524288, 64]⟩
abbrev S128x32 : Shape := ⟨2, ![128, 32]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S64 : Shape := ⟨1, ![64]⟩
abbrev S32 : Shape := ⟨1, ![32]⟩
abbrev S_ : Shape := ⟨0, ![]⟩
abbrev S128x1 : Shape := ⟨2, ![128, 1]⟩
abbrev S1x32 : Shape := ⟨2, ![1, 32]⟩
abbrev S1x128 : Shape := ⟨2, ![1, 128]⟩
abbrev S64x1 : Shape := ⟨2, ![64, 1]⟩
abbrev S32x128 : Shape := ⟨2, ![32, 128]⟩
abbrev S524288x128 : Shape := ⟨2, ![524288, 128]⟩
abbrev S1x64 : Shape := ⟨2, ![1, 64]⟩
abbrev S524288 : Shape := ⟨1, ![524288]⟩
abbrev S524288x1 : Shape := ⟨2, ![524288, 1]⟩

abbrev nBuf : Space → Nat
  | .hbm => 122
  | .vmem => 0
  | .smem => 0
  | _ => 0

abbrev bufTy : (tb : Table) → Fin (tcTables nBuf tb) → BufTy
  | .hbm, ⟨0, _⟩ => ⟨S524288x32, .f32⟩
  | .hbm, ⟨1, _⟩ => ⟨S524288x64, .f32⟩
  | .hbm, ⟨2, _⟩ => ⟨S128x32, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S32, .i32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S_, .i1⟩
  | .hbm, ⟨27, _⟩ => ⟨S128, .i1⟩
  | .hbm, ⟨28, _⟩ => ⟨S128, .i1⟩
  | .hbm, ⟨29, _⟩ => ⟨S128, .i1⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S_, .i1⟩
  | .hbm, ⟨50, _⟩ => ⟨S64, .i1⟩
  | .hbm, ⟨51, _⟩ => ⟨S64, .i1⟩
  | .hbm, ⟨52, _⟩ => ⟨S64, .i1⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S128x1, .i32⟩
  | .hbm, ⟨60, _⟩ => ⟨S1x32, .i32⟩
  | .hbm, ⟨61, _⟩ => ⟨S128x32, .i32⟩
  | .hbm, ⟨62, _⟩ => ⟨S128x32, .i32⟩
  | .hbm, ⟨63, _⟩ => ⟨S128x32, .i1⟩
  | .hbm, ⟨64, _⟩ => ⟨S128x32, .f32⟩
  | .hbm, ⟨65, _⟩ => ⟨S128x1, .i32⟩
  | .hbm, ⟨66, _⟩ => ⟨S1x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S128x128, .f32⟩
  | .hbm, ⟨71, _⟩ => ⟨S64x1, .i32⟩
  | .hbm, ⟨72, _⟩ => ⟨S1x128, .i32⟩
  | .hbm, ⟨73, _⟩ => ⟨S64x128, .i32⟩
  | .hbm, ⟨74, _⟩ => ⟨S64x128, .i32⟩
  | .hbm, ⟨75, _⟩ => ⟨S64x128, .i1⟩
  | .hbm, ⟨76, _⟩ => ⟨S64x128, .f32⟩
  | .hbm, ⟨77, _⟩ => ⟨S128x32, .f32⟩
  | .hbm, ⟨78, _⟩ => ⟨S32x128, .f32⟩
  | .hbm, ⟨79, _⟩ => ⟨S524288x128, .f32⟩
  | .hbm, ⟨80, _⟩ => ⟨S1x128, .f32⟩
  | .hbm, ⟨81, _⟩ => ⟨S524288x128, .f32⟩
  | .hbm, ⟨82, _⟩ => ⟨S524288x128, .f32⟩
  | .hbm, ⟨83, _⟩ => ⟨S64x128, .f32⟩
  | .hbm, ⟨84, _⟩ => ⟨S524288x128, .f32⟩
  | .hbm, ⟨85, _⟩ => ⟨S524288x128, .f32⟩
  | .hbm, ⟨86, _⟩ => ⟨S_, .f32⟩
  | .hbm, ⟨87, _⟩ => ⟨S524288x128, .f32⟩
  | .hbm, ⟨88, _⟩ => ⟨S524288x128, .f32⟩
  | .hbm, ⟨89, _⟩ => ⟨S128x128, .f32⟩
  | .hbm, ⟨90, _⟩ => ⟨S128x128, .f32⟩
  | .hbm, ⟨91, _⟩ => ⟨S524288x128, .f32⟩
  | .hbm, ⟨92, _⟩ => ⟨S1x128, .f32⟩
  | .hbm, ⟨93, _⟩ => ⟨S524288x128, .f32⟩
  | .hbm, ⟨94, _⟩ => ⟨S524288x128, .f32⟩
  | .hbm, ⟨95, _⟩ => ⟨S_, .f32⟩
  | .hbm, ⟨96, _⟩ => ⟨S524288x128, .f32⟩
  | .hbm, ⟨97, _⟩ => ⟨S524288x128, .f32⟩
  | .hbm, ⟨98, _⟩ => ⟨S64x128, .f32⟩
  | .hbm, ⟨99, _⟩ => ⟨S128x64, .f32⟩
  | .hbm, ⟨100, _⟩ => ⟨S524288x64, .f32⟩
  | .hbm, ⟨101, _⟩ => ⟨S1x64, .f32⟩
  | .hbm, ⟨102, _⟩ => ⟨S524288x64, .f32⟩
  | .hbm, ⟨103, _⟩ => ⟨S524288x64, .f32⟩
  | .hbm, ⟨104, _⟩ => ⟨S524288x32, .f32⟩
  | .hbm, ⟨105, _⟩ => ⟨S524288x32, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S524288x32, .f32⟩
  | .hbm, ⟨110, _⟩ => ⟨S524288x32, .f32⟩
  | .hbm, ⟨111, _⟩ => ⟨S_, .f32⟩
  | .hbm, ⟨112, _⟩ => ⟨S524288x32, .f32⟩
  | .hbm, ⟨113, _⟩ => ⟨S524288x32, .f32⟩
  | .hbm, ⟨114, _⟩ => ⟨S524288x32, .f32⟩
  | .hbm, ⟨115, _⟩ => ⟨S524288x32, .f32⟩
  | .hbm, ⟨116, _⟩ => ⟨S524288x32, .f32⟩
  | .hbm, ⟨117, _⟩ => ⟨S524288x32, .f32⟩
  | .hbm, ⟨118, _⟩ => ⟨S_, .f32⟩
  | .hbm, ⟨119, _⟩ => ⟨S524288, .f32⟩
  | .hbm, ⟨120, _⟩ => ⟨S524288x1, .f32⟩
  | .hbm, ⟨121, _⟩ => ⟨S524288x1, .f32⟩
  | _, _ => ⟨S524288x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v4 : Ref sig .tc := ⟨.hbm, 55, rfl⟩
abbrev main_c_1 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_call2_cst : Ref sig .tc := ⟨.hbm, 86, rfl⟩
abbrev main_call2_v0 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_call3_cst : Ref sig .tc := ⟨.hbm, 95, rfl⟩
abbrev main_call3_v0 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_cst : Ref sig .tc := ⟨.hbm, 106, rfl⟩
abbrev main_cst_2 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_3 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S_S64 : S_.BroadcastsInDim S64 (![] : Fin 0 → Fin S64.rank)
  bcast_S128_S128x1_0 : S128.BroadcastsInDim S128x1 (![0] : Fin 1 → Fin S128x1.rank)
  bcast_S32_S1x32_1 : S32.BroadcastsInDim S1x32 (![1] : Fin 1 → Fin S1x32.rank)
  bcast_S128x1_S128x32_0_1 : S128x1.BroadcastsInDim S128x32 (![0, 1] : Fin 2 → Fin S128x32.rank)
  bcast_S1x32_S128x32_0_1 : S1x32.BroadcastsInDim S128x32 (![0, 1] : Fin 2 → Fin S128x32.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  transposes_S128x32_S32x128_1_0 : S128x32.Transposes [1, 0] S32x128
  bcast_S1x128_S524288x128_0_1 : S1x128.BroadcastsInDim S524288x128 (![0, 1] : Fin 2 → Fin S524288x128.rank)
  transposes_S128x64_S64x128_1_0 : S128x64.Transposes [1, 0] S64x128
  bcast_S_S524288x128 : S_.BroadcastsInDim S524288x128 (![] : Fin 0 → Fin S524288x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  slices_S524288x64_S524288x32_0_0 : S524288x64.Slices ![0, 0] S524288x32
  slices_S524288x64_S524288x32_0_32 : S524288x64.Slices ![0, 32] S524288x32
  bcast_S_S524288x32 : S_.BroadcastsInDim S524288x32 (![] : Fin 0 → Fin S524288x32.rank)
  reducesTo_S524288x32_S524288_d1 : S524288x32.ReducesTo [1] S524288
  h_S_ : 0 < S_.numel
  bcast_S524288_S524288x1_0 : S524288.BroadcastsInDim S524288x1 (![0] : Fin 1 → Fin S524288x1.rank)
  dot_S524288x32_S32x128_S524288x128_1_0_0_1_n_n_wf : DotDims.WF S524288x32 S32x128 S524288x128 [1] [0] [0] [1] [] []
  dot_S524288x64_S64x128_S524288x128_1_0_0_1_n_n_wf : DotDims.WF S524288x64 S64x128 S524288x128 [1] [0] [0] [1] [] []
  dot_S524288x128_S128x128_S524288x128_1_0_0_1_n_n_wf : DotDims.WF S524288x128 S128x128 S524288x128 [1] [0] [0] [1] [] []
  dot_S524288x128_S128x64_S524288x64_1_0_0_1_n_n_wf : DotDims.WF S524288x128 S128x64 S524288x64 [1] [0] [0] [1] [] []

variable [Facts₀]

def dot_S524288x32_S32x128_S524288x128_1_0_0_1_n_n : DotDims S524288x32 S32x128 S524288x128 where
  lhsContracting := [1]
  rhsContracting := [0]
  lhsNonContracting := [0]
  rhsNonContracting := [1]
  lhsBatch := []
  rhsBatch := []
  wf := dot_S524288x32_S32x128_S524288x128_1_0_0_1_n_n_wf
def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf

class Facts : Prop extends Facts₀ where

variable [Facts]
-- ==== Proof.KernelMasks.lean ====
/-
  The three masks of the autoregressive structure, as the kernel's program computes them on the host before anything else: every
  hidden unit `i` has degree `i mod 31`, every input `k` degree `k`, every output `j` degree `(j mod 32) - 1`; a weight
  from a unit of degree `b` into a unit of degree `a` is kept when `a ≥ b`. The remainder is the floor remainder: the
  truncating one, moved by the modulus where its sign differs from the modulus's. Nothing below opens these terms: the
  two programs spell them with the same operations, and the certificate only needs that they are the same arrays.
-/
import proofs.«134623_j54829552501285_1_alg».proof.Proof.Gen.KernelIdeal

noncomputable section

namespace Cert.KernelIdeal.Masks

open Cert.KernelIdeal Cert.KernelIdeal.Gen Idealize.ShloMosaic Idealize.ShloMosaic.TcCoe

variable {F : FTy → Type} [FloatOps F]

/-- The modulus as the remainder uses it: `1` in place of `0`. -/
def modulus (n : BitVec 32) : IVec S_ 32 :=
  select (cmpi .eq (id (constantI S_ 32 n)) (constantI S_ 32 0#32)) (constantI S_ 32 1#32) (id (constantI S_ 32 n))

/-- The truncating remainders of `0, …, 127` by the modulus. -/
def trunc128 (n : BitVec 32) : IVec S128 32 :=
  Host.remsi (iotaInDim S128 32 0) (broadcastInDim S128 ![] bcast_S_S128 (modulus n))

/-- The floor remainders of `0, …, 127`. -/
def mod128 (n : BitVec 32) : IVec S128 32 :=
  select
    (andi
      (cmpi .ne (cmpi .slt (trunc128 n) (broadcastInDim S128 ![] bcast_S_S128 (constantI S_ 32 0#32)))
        (broadcastInDim S128 ![] bcast_S_S128 (cmpi .slt (modulus n) (constantI S_ 32 0#32))))
      (cmpi .ne (trunc128 n) (broadcastInDim S128 ![] bcast_S_S128 (constantI S_ 32 0#32))))
    (addi (trunc128 n) (broadcastInDim S128 ![] bcast_S_S128 (modulus n)))
    (trunc128 n)

/-- The truncating remainders of `0, …, 63` by the modulus. -/
def trunc64 (n : BitVec 32) : IVec S64 32 :=
  Host.remsi (iotaInDim S64 32 0) (broadcastInDim S64 ![] bcast_S_S64 (modulus n))

/-- The floor remainders of `0, …, 63`. -/
def mod64 (n : BitVec 32) : IVec S64 32 :=
  select
    (andi
      (cmpi .ne (cmpi .slt (trunc64 n) (broadcastInDim S64 ![] bcast_S_S64 (constantI S_ 32 0#32)))
        (broadcastInDim S64 ![] bcast_S_S64 (cmpi .slt (modulus n) (constantI S_ 32 0#32))))
      (cmpi .ne (trunc64 n) (broadcastInDim S64 ![] bcast_S_S64 (constantI S_ 32 0#32))))
    (addi (trunc64 n) (broadcastInDim S64 ![] bcast_S_S64 (modulus n)))
    (trunc64 n)

/-- The hidden units' degrees. -/
def degHid : IVec S128 32 := mod128 31#32

/-- The outputs' degrees. -/
def degOut : IVec S64 32 := subi (mod64 32#32) (broadcastInDim S64 ![] bcast_S_S64 (constantI S_ 32 1#32))

/-- Hidden unit against input: kept when the unit's degree is at least the input's. -/
def maskIn : FVec F S128x32 .f32 :=
  uitofp .f32 (cmpi .sge
    (broadcastInDim S128x32 ![0, 1] bcast_S128x1_S128x32_0_1 (broadcastInDim S128x1 ![0] bcast_S128_S128x1_0 degHid))
    (broadcastInDim S128x32 ![0, 1] bcast_S1x32_S128x32_0_1 (broadcastInDim S1x32 ![1] bcast_S32_S1x32_1 (iotaInDim S32 32 0))))

/-- Hidden unit against hidden unit. -/
def maskHid : FVec F S128x128 .f32 :=
  uitofp .f32 (cmpi .sge
    (broadcastInDim S128x128 ![0, 1] bcast_S128x1_S128x128_0_1 (broadcastInDim S128x1 ![0] bcast_S128_S128x1_0 degHid))
    (broadcastInDim S128x128 ![0, 1] bcast_S1x128_S128x128_0_1 (broadcastInDim S1x128 ![1] bcast_S128_S1x128_1 degHid)))

/-- Output against hidden unit. -/
def maskOut : FVec F S64x128 .f32 :=
  uitofp .f32 (cmpi .sge
    (broadcastInDim S64x128 ![0, 1] bcast_S64x1_S64x128_0_1 (broadcastInDim S64x1 ![0] bcast_S64_S64x1_0 degOut))
    (broadcastInDim S64x128 ![0, 1] bcast_S1x128_S64x128_0_1 (broadcastInDim S1x128 ![1] bcast_S128_S1x128_1 degHid)))

end Cert.KernelIdeal.Masks

end
-- ==== Proof.KernelHost.lean ====
/-
  What the kernel's region finds in the arrays its program prepares on the host: each masked matrix is the argument matrix
  times its mask, and each bias, reshaped to one row, is the argument vector read through the reshape.
-/
import proofs.«134623_j54829552501285_1_alg».proof.Proof.Gen.KernelIdeal.Frame
import proofs.«134623_j54829552501285_1_alg».proof.Proof.KernelMasks
import Idealize.ShloMosaic.Lib.StableHlo.Run

noncomputable section

namespace Cert.KernelIdeal.Host

open Cert.KernelIdeal Cert.KernelIdeal.Gen Cert.KernelIdeal.Masks Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 1000000 in
/-- The first layer's matrix as the region finds it: the argument times the input mask. -/
theorem V_v25 (c : Dev nD) :
    (V m c main_v25 : FVec F S128x32 .f32) = mulf (m ((c : Thread nD τ).loc main_arg2)) maskIn := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 1000000 in
/-- The second layer's matrix: the argument times the hidden mask. -/
theorem V_v26 (c : Dev nD) :
    (V m c main_v26 : FVec F S128x128 .f32) = mulf (m ((c : Thread nD τ).loc main_arg5)) maskHid := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 1000000 in
/-- The output layer's matrix: the argument times the output mask. -/
theorem V_v27 (c : Dev nD) :
    (V m c main_v27 : FVec F S64x128 .f32) = mulf (m ((c : Thread nD τ).loc main_arg7)) maskOut := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 1000000 in
/-- The first bias as one row. -/
theorem V_v28 (c : Dev nD) :
    (V m c main_v28 : FVec F S1x128 .f32) = shapeCast S1x128 (m ((c : Thread nD τ).loc main_arg3)) shapeCasts_S128_S1x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 1000000 in
/-- The second bias as one row. -/
theorem V_v29 (c : Dev nD) :
    (V m c main_v29 : FVec F S1x128 .f32) = shapeCast S1x128 (m ((c : Thread nD τ).loc main_arg6)) shapeCasts_S128_S1x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 1000000 in
/-- The output bias as one row. -/
theorem V_v30 (c : Dev nD) :
    (V m c main_v30 : FVec F S1x64 .f32) = shapeCast S1x64 (m ((c : Thread nD τ).loc main_arg8)) shapeCasts_S64_S1x64 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.Host

end
-- ==== Proof.Flow.lean ====
/-
  One step of a masked autoregressive flow, row by row, on the extended reals.

  A row of the batch is a pair of vectors `xr` (32 entries) and `cr` (64 conditioning entries). Three affine layers
  follow, each a matrix applied to a row vector plus a bias, the first two clamped below at zero:

    h₁ j = max ((∑ₖ xr k · W1 j k) + (∑ₖ cr k · Wc j k) + b1 j) 0        (128 units)
    h₂ j = max ((∑ₖ h₁ k · W2 j k) + b2 j) 0                              (128 units)
    o  j =      (∑ₖ h₂ k · W3 j k) + b3 j                                 ( 64 units)

  The first 32 entries of `o` are a shift, the last 32 a log-scale clamped to the interval between two bounds
  `lo ≤ · ≤ hi`; the step maps the row to `(xr j - shift j) · exp (-(scale j))` and reports minus the sum of the clamped
  log-scales. Nothing here rounds, and sums are finite sums in a commutative monoid, so the order in which a machine adds the
  products plays no part.
-/
import Idealize.ShloMosaic.PureOps.Ideal
import Idealize.ShloMosaic.Lib.ValueIdx

noncomputable section

namespace Cert.Flow

open Idealize.ShloMosaic Idealize.ShloMosaic.ValueIdx

/-- The weights of the three layers, each matrix as unit-by-input and each bias by unit; the masks of the autoregressive
    structure are already multiplied into `W1`, `W2`, `W3`. `lo` and `hi` bound the log-scale. -/
structure Weights where
  W1 : Fin 128 → Fin 32 → EReal
  Wc : Fin 128 → Fin 64 → EReal
  b1 : Fin 128 → EReal
  W2 : Fin 128 → Fin 128 → EReal
  b2 : Fin 128 → EReal
  W3 : Fin 64 → Fin 128 → EReal
  b3 : Fin 64 → EReal
  lo : EReal
  hi : EReal

/-- A row vector against one unit's weights: the sum of the products. -/
def lin {K : Nat} (v w : Fin K → EReal) : EReal := ∑ k : Fin K, v k * w k

/-- The first hidden layer of a row. -/
def hid1 (θ : Weights) (xr : Fin 32 → EReal) (cr : Fin 64 → EReal) (j : Fin 128) : EReal :=
  max (lin xr (θ.W1 j) + lin cr (θ.Wc j) + θ.b1 j) 0

/-- The second hidden layer, of the first's values. -/
def hid2 (θ : Weights) (h : Fin 128 → EReal) (j : Fin 128) : EReal :=
  max (lin h (θ.W2 j) + θ.b2 j) 0

/-- The output layer, of the second's values: 64 entries, shifts then log-scales. -/
def outv (θ : Weights) (h : Fin 128 → EReal) (j : Fin 64) : EReal :=
  lin h (θ.W3 j) + θ.b3 j

/-- The 64 outputs of a row. -/
def outRow (θ : Weights) (xr : Fin 32 → EReal) (cr : Fin 64 → EReal) : Fin 64 → EReal :=
  outv θ (hid2 θ (hid1 θ xr cr))

/-- Entry `j` of the shift: output `j`. -/
def shift (o : Fin 64 → EReal) (j : Fin 32) : EReal := o ⟨j.val, by omega⟩

/-- Entry `j` of the clamped log-scale: output `32 + j` between the bounds. -/
def scale (θ : Weights) (o : Fin 64 → EReal) (j : Fin 32) : EReal := min θ.hi (max θ.lo (o ⟨32 + j.val, by omega⟩))

/-- The transformed row. -/
def uRow (θ : Weights) (xr : Fin 32 → EReal) (cr : Fin 64 → EReal) (j : Fin 32) : EReal :=
  (xr j - shift (outRow θ xr cr) j) * Ideal.exp (-(scale θ (outRow θ xr cr) j))

/-- Minus the sum of the row's clamped log-scales. -/
def ldRow (θ : Weights) (xr : Fin 32 → EReal) (cr : Fin 64 → EReal) : EReal :=
  -(∑ j : Fin 32, scale θ (outRow θ xr cr) j)

/-- Row `r` of a two-axis array. -/
def row {B K : Nat} (x : (⟨2, ![B, K]⟩ : Shape).Idx → EReal) (r : Fin B) : Fin K → EReal := fun k => x (ix2 r k)

/-- The weights read off arrays: matrices by their two coordinates, biases by their one. -/
def weightsOf (W1 : (⟨2, ![128, 32]⟩ : Shape).Idx → EReal) (Wc : (⟨2, ![128, 64]⟩ : Shape).Idx → EReal) (b1 : Fin 128 → EReal)
    (W2 : (⟨2, ![128, 128]⟩ : Shape).Idx → EReal) (b2 : Fin 128 → EReal)
    (W3 : (⟨2, ![64, 128]⟩ : Shape).Idx → EReal) (b3 : Fin 64 → EReal) (lo hi : EReal) : Weights where
  W1 := fun j k => W1 (ix2 j k)
  Wc := fun j k => Wc (ix2 j k)
  b1 := b1
  W2 := fun j k => W2 (ix2 j k)
  b2 := b2
  W3 := fun j k => W3 (ix2 j k)
  b3 := b3
  lo := lo
  hi := hi

/-- The whole transformed batch: entry `(r, j)` is entry `j` of row `r`'s transform. -/
def U {B : Nat} (θ : Weights) (x : (⟨2, ![B, 32]⟩ : Shape).Idx → EReal) (cond : (⟨2, ![B, 64]⟩ : Shape).Idx → EReal) :
    (⟨2, ![B, 32]⟩ : Shape).Idx → EReal :=
  fun i => uRow θ (row x (i 0)) (row cond (i 0)) (i 1)

/-- The whole batch's log-determinants: entry `(r, 0)` is row `r`'s. -/
def L {B : Nat} (θ : Weights) (x : (⟨2, ![B, 32]⟩ : Shape).Idx → EReal) (cond : (⟨2, ![B, 64]⟩ : Shape).Idx → EReal) :
    (⟨2, ![B, 1]⟩ : Shape).Idx → EReal :=
  fun i => ldRow θ (row x (i 0)) (row cond (i 0))

theorem U_apply {B : Nat} (θ : Weights) (x : (⟨2, ![B, 32]⟩ : Shape).Idx → EReal) (cond : (⟨2, ![B, 64]⟩ : Shape).Idx → EReal)
    (r : Fin B) (j : Fin 32) : U θ x cond (ix2 r j) = uRow θ (row x r) (row cond r) j := rfl

theorem L_apply {B : Nat} (θ : Weights) (x : (⟨2, ![B, 32]⟩ : Shape).Idx → EReal) (cond : (⟨2, ![B, 64]⟩ : Shape).Idx → EReal)
    (r : Fin B) (j : Fin 1) : L θ x cond (ix2 r j) = ldRow θ (row x r) (row cond r) := rfl

end Cert.Flow

end
-- ==== Proof.KernelPoint.lean ====
/-
  What one grid point's body leaves in its two output blocks, entry by entry: row `p` of the 4096-row block is the flow
  step (Flow.lean) of row `p` of the point's `x` and `cond` blocks under the weights the resident blocks hold.
-/
import proofs.«134623_j54829552501285_1_alg».proof.Proof.Gen.KernelIdeal.Frame
import proofs.«134623_j54829552501285_1_alg».proof.Proof.Gen.KernelIdeal.Value
import proofs.«134623_j54829552501285_1_alg».proof.Proof.Flow
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Point

open Idealize.ShloMosaic Idealize.ShloMosaic.TcCoe Idealize.ShloMosaic.ValueIdx Cert.KernelIdeal Cert.KernelIdeal.Gen

/-- The weights as the body reads them from its resident blocks: the three masked matrices and the conditioning matrix by
    their two coordinates, each bias from the one row of its `[1, n]` block, the log-scale's bounds the two literals. -/
def blockWeights (x2 : Vec Ideal S128x32 .f32) (x3 : Vec Ideal S128x64 .f32) (x4 : Vec Ideal S1x128 .f32)
    (x5 : Vec Ideal S128x128 .f32) (x6 : Vec Ideal S1x128 .f32) (x7 : Vec Ideal S64x128 .f32) (x8 : Vec Ideal S1x64 .f32) :
    Cert.Flow.Weights :=
  Cert.Flow.weightsOf x2 x3 (fun j => x4 (ix2 (0 : Fin 1) j)) x5 (fun j => x6 (ix2 (0 : Fin 1) j)) x7 (fun j => x8 (ix2 (0 : Fin 1) j))
    (Ideal.ofBits .f32 0xC0A00000#32) (Ideal.ofBits .f32 0x40A00000#32)

/-! ## The four dots, entry by entry -/

/-! The operand indices of the dot of the input row against the first masked matrix, axis by axis: the left operand reads the output's row and the contracted
    coordinate, the right operand the output's column and the contracted coordinate. -/
theorem lhs_x_0 (i : S4096x128.Idx) (q : dot_S4096x32_S128x32_S4096x128_1_1_0_0_n_n.contr.Idx) :
    (dot_S4096x32_S128x32_S4096x128_1_1_0_0_n_n.lhsIdx i q 0).val = (i 0).val := by
  unfold DotDims.lhsIdx
  rw [dif_neg (show ¬(0 : Fin S4096x32.rank) ∈ dot_S4096x32_S128x32_S4096x128_1_1_0_0_n_n.lhsBatch by decide),
    dif_pos (show (0 : Fin S4096x32.rank) ∈ dot_S4096x32_S128x32_S4096x128_1_1_0_0_n_n.lhsNonContracting by decide)]
  rfl
theorem lhs_x_1 (i : S4096x128.Idx) (q : dot_S4096x32_S128x32_S4096x128_1_1_0_0_n_n.contr.Idx) :
    (dot_S4096x32_S128x32_S4096x128_1_1_0_0_n_n.lhsIdx i q 1).val = (q ⟨0, by decide⟩).val :=
  dot_S4096x32_S128x32_S4096x128_1_1_0_0_n_n.lhsIdx_val_of_single rfl i q
theorem rhs_x_0 (i : S4096x128.Idx) (q : dot_S4096x32_S128x32_S4096x128_1_1_0_0_n_n.contr.Idx) :
    (dot_S4096x32_S128x32_S4096x128_1_1_0_0_n_n.rhsIdx i q 0).val = (i 1).val := by
  unfold DotDims.rhsIdx
  rw [dif_neg (show ¬(0 : Fin S128x32.rank) ∈ dot_S4096x32_S128x32_S4096x128_1_1_0_0_n_n.rhsBatch by decide),
    dif_pos (show (0 : Fin S128x32.rank) ∈ dot_S4096x32_S128x32_S4096x128_1_1_0_0_n_n.rhsNonContracting by decide)]
  rfl
theorem rhs_x_1 (i : S4096x128.Idx) (q : dot_S4096x32_S128x32_S4096x128_1_1_0_0_n_n.contr.Idx) :
    (dot_S4096x32_S128x32_S4096x128_1_1_0_0_n_n.rhsIdx i q 1).val = (q ⟨0, by decide⟩).val :=
  dot_S4096x32_S128x32_S4096x128_1_1_0_0_n_n.rhsIdx_val_of_single rfl i q

/-- That dot at row `p` and unit `j`: the accumulator there plus the sum over the 32 contracted coordinates of the left
    operand's row `p` times the right operand's row `j`. -/
theorem mm_x_apply (a : FVec Ideal S4096x32 .bf16) (w : FVec Ideal S128x32 .bf16) (acc : FVec Ideal S4096x128 .f32) (p : Fin 4096) (j : Fin 128) :
    matmul dot_S4096x32_S128x32_S4096x128_1_1_0_0_n_n none a w acc (ix2 p j)
      = acc (ix2 p j) + ∑ k : Fin 32, a (ix2 p k) * w (ix2 j k) := by
  refine (Ideal.matmul_apply dot_S4096x32_S128x32_S4096x128_1_1_0_0_n_n none a w acc (ix2 p j)).trans ?_
  refine congrArg (acc (ix2 p j) + ·) ?_
  rw [← Equiv.sum_comp (contrEquiv1 dot_S4096x32_S128x32_S4096x128_1_1_0_0_n_n 32 rfl rfl).symm]
  refine Finset.sum_congr rfl fun k _ => ?_
  have hk := contrEquiv1_symm_val dot_S4096x32_S128x32_S4096x128_1_1_0_0_n_n 32 rfl rfl k
  have el : dot_S4096x32_S128x32_S4096x128_1_1_0_0_n_n.lhsIdx (ix2 p j) ((contrEquiv1 dot_S4096x32_S128x32_S4096x128_1_1_0_0_n_n 32 rfl rfl).symm k) = ix2 p k :=
    funext fun a => Fin.ext (by
      match a with
      | ⟨0, _⟩ => exact lhs_x_0 _ _
      | ⟨1, _⟩ => exact (lhs_x_1 _ _).trans hk)
  have er : dot_S4096x32_S128x32_S4096x128_1_1_0_0_n_n.rhsIdx (ix2 p j) ((contrEquiv1 dot_S4096x32_S128x32_S4096x128_1_1_0_0_n_n 32 rfl rfl).symm k) = ix2 j k :=
    funext fun a => Fin.ext (by
      match a with
      | ⟨0, _⟩ => exact rhs_x_0 _ _
      | ⟨1, _⟩ => exact (rhs_x_1 _ _).trans hk)
  rw [el, er]

/-! The operand indices of the dot of the conditioning row against the conditioning matrix, axis by axis: the left operand reads the output's row and the contracted
    coordinate, the right operand the output's column and the contracted coordinate. -/
theorem lhs_c_0 (i : S4096x128.Idx) (q : dot_S4096x64_S128x64_S4096x128_1_1_0_0_n_n.contr.Idx) :
    (dot_S4096x64_S128x64_S4096x128_1_1_0_0_n_n.lhsIdx i q 0).val = (i 0).val := by
  unfold DotDims.lhsIdx
  rw [dif_neg (show ¬(0 : Fin S4096x64.rank) ∈ dot_S4096x64_S128x64_S4096x128_1_1_0_0_n_n.lhsBatch by decide),
    dif_pos (show (0 : Fin S4096x64.rank) ∈ dot_S4096x64_S128x64_S4096x128_1_1_0_0_n_n.lhsNonContracting by decide)]
  rfl
theorem lhs_c_1 (i : S4096x128.Idx) (q : dot_S4096x64_S128x64_S4096x128_1_1_0_0_n_n.contr.Idx) :
    (dot_S4096x64_S128x64_S4096x128_1_1_0_0_n_n.lhsIdx i q 1).val = (q ⟨0, by decide⟩).val :=
  dot_S4096x64_S128x64_S4096x128_1_1_0_0_n_n.lhsIdx_val_of_single rfl i q
theorem rhs_c_0 (i : S4096x128.Idx) (q : dot_S4096x64_S128x64_S4096x128_1_1_0_0_n_n.contr.Idx) :
    (dot_S4096x64_S128x64_S4096x128_1_1_0_0_n_n.rhsIdx i q 0).val = (i 1).val := by
  unfold DotDims.rhsIdx
  rw [dif_neg (show ¬(0 : Fin S128x64.rank) ∈ dot_S4096x64_S128x64_S4096x128_1_1_0_0_n_n.rhsBatch by decide),
    dif_pos (show (0 : Fin S128x64.rank) ∈ dot_S4096x64_S128x64_S4096x128_1_1_0_0_n_n.rhsNonContracting by decide)]
  rfl
theorem rhs_c_1 (i : S4096x128.Idx) (q : dot_S4096x64_S128x64_S4096x128_1_1_0_0_n_n.contr.Idx) :
    (dot_S4096x64_S128x64_S4096x128_1_1_0_0_n_n.rhsIdx i q 1).val = (q ⟨0, by decide⟩).val :=
  dot_S4096x64_S128x64_S4096x128_1_1_0_0_n_n.rhsIdx_val_of_single rfl i q

/-- That dot at row `p` and unit `j`: the accumulator there plus the sum over the 64 contracted coordinates of the left
    operand's row `p` times the right operand's row `j`. -/
theorem mm_c_apply (a : FVec Ideal S4096x64 .bf16) (w : FVec Ideal S128x64 .bf16) (acc : FVec Ideal S4096x128 .f32) (p : Fin 4096) (j : Fin 128) :
    matmul dot_S4096x64_S128x64_S4096x128_1_1_0_0_n_n none a w acc (ix2 p j)
      = acc (ix2 p j) + ∑ k : Fin 64, a (ix2 p k) * w (ix2 j k) := by
  refine (Ideal.matmul_apply dot_S4096x64_S128x64_S4096x128_1_1_0_0_n_n none a w acc (ix2 p j)).trans ?_
  refine congrArg (acc (ix2 p j) + ·) ?_
  rw [← Equiv.sum_comp (contrEquiv1 dot_S4096x64_S128x64_S4096x128_1_1_0_0_n_n 64 rfl rfl).symm]
  refine Finset.sum_congr rfl fun k _ => ?_
  have hk := contrEquiv1_symm_val dot_S4096x64_S128x64_S4096x128_1_1_0_0_n_n 64 rfl rfl k
  have el : dot_S4096x64_S128x64_S4096x128_1_1_0_0_n_n.lhsIdx (ix2 p j) ((contrEquiv1 dot_S4096x64_S128x64_S4096x128_1_1_0_0_n_n 64 rfl rfl).symm k) = ix2 p k :=
    funext fun a => Fin.ext (by
      match a with
      | ⟨0, _⟩ => exact lhs_c_0 _ _
      | ⟨1, _⟩ => exact (lhs_c_1 _ _).trans hk)
  have er : dot_S4096x64_S128x64_S4096x128_1_1_0_0_n_n.rhsIdx (ix2 p j) ((contrEquiv1 dot_S4096x64_S128x64_S4096x128_1_1_0_0_n_n 64 rfl rfl).symm k) = ix2 j k :=
    funext fun a => Fin.ext (by
      match a with
      | ⟨0, _⟩ => exact rhs_c_0 _ _
      | ⟨1, _⟩ => exact (rhs_c_1 _ _).trans hk)
  rw [el, er]

/-! The operand indices of the dot of the first hidden row against the second masked matrix, axis by axis: the left operand reads the output's row and the contracted
    coordinate, the right operand the output's column and the contracted coordinate. -/
theorem lhs_h_0 (i : S4096x128.Idx) (q : dot_S4096x128_S128x128_S4096x128_1_1_0_0_n_n.contr.Idx) :
    (dot_S4096x128_S128x128_S4096x128_1_1_0_0_n_n.lhsIdx i q 0).val = (i 0).val := by
  unfold DotDims.lhsIdx
  rw [dif_neg (show ¬(0 : Fin S4096x128.rank) ∈ dot_S4096x128_S128x128_S4096x128_1_1_0_0_n_n.lhsBatch by decide),
    dif_pos (show (0 : Fin S4096x128.rank) ∈ dot_S4096x128_S128x128_S4096x128_1_1_0_0_n_n.lhsNonContracting by decide)]
  rfl
theorem lhs_h_1 (i : S4096x128.Idx) (q : dot_S4096x128_S128x128_S4096x128_1_1_0_0_n_n.contr.Idx) :
    (dot_S4096x128_S128x128_S4096x128_1_1_0_0_n_n.lhsIdx i q 1).val = (q ⟨0, by decide⟩).val :=
  dot_S4096x128_S128x128_S4096x128_1_1_0_0_n_n.lhsIdx_val_of_single rfl i q
theorem rhs_h_0 (i : S4096x128.Idx) (q : dot_S4096x128_S128x128_S4096x128_1_1_0_0_n_n.contr.Idx) :
    (dot_S4096x128_S128x128_S4096x128_1_1_0_0_n_n.rhsIdx i q 0).val = (i 1).val := by
  unfold DotDims.rhsIdx
  rw [dif_neg (show ¬(0 : Fin S128x128.rank) ∈ dot_S4096x128_S128x128_S4096x128_1_1_0_0_n_n.rhsBatch by decide),
    dif_pos (show (0 : Fin S128x128.rank) ∈ dot_S4096x128_S128x128_S4096x128_1_1_0_0_n_n.rhsNonContracting by decide)]
  rfl
theorem rhs_h_1 (i : S4096x128.Idx) (q : dot_S4096x128_S128x128_S4096x128_1_1_0_0_n_n.contr.Idx) :
    (dot_S4096x128_S128x128_S4096x128_1_1_0_0_n_n.rhsIdx i q 1).val = (q ⟨0, by decide⟩).val :=
  dot_S4096x128_S128x128_S4096x128_1_1_0_0_n_n.rhsIdx_val_of_single rfl i q

/-- That dot at row `p` and unit `j`: the accumulator there plus the sum over the 128 contracted coordinates of the left
    operand's row `p` times the right operand's row `j`. -/
theorem mm_h_apply (a : FVec Ideal S4096x128 .bf16) (w : FVec Ideal S128x128 .bf16) (acc : FVec Ideal S4096x128 .f32) (p : Fin 4096) (j : Fin 128) :
    matmul dot_S4096x128_S128x128_S4096x128_1_1_0_0_n_n none a w acc (ix2 p j)
      = acc (ix2 p j) + ∑ k : Fin 128, a (ix2 p k) * w (ix2 j k) := by
  refine (Ideal.matmul_apply dot_S4096x128_S128x128_S4096x128_1_1_0_0_n_n none a w acc (ix2 p j)).trans ?_
  refine congrArg (acc (ix2 p j) + ·) ?_
  rw [← Equiv.sum_comp (contrEquiv1 dot_S4096x128_S128x128_S4096x128_1_1_0_0_n_n 128 rfl rfl).symm]
  refine Finset.sum_congr rfl fun k _ => ?_
  have hk := contrEquiv1_symm_val dot_S4096x128_S128x128_S4096x128_1_1_0_0_n_n 128 rfl rfl k
  have el : dot_S4096x128_S128x128_S4096x128_1_1_0_0_n_n.lhsIdx (ix2 p j) ((contrEquiv1 dot_S4096x128_S128x128_S4096x128_1_1_0_0_n_n 128 rfl rfl).symm k) = ix2 p k :=
    funext fun a => Fin.ext (by
      match a with
      | ⟨0, _⟩ => exact lhs_h_0 _ _
      | ⟨1, _⟩ => exact (lhs_h_1 _ _).trans hk)
  have er : dot_S4096x128_S128x128_S4096x128_1_1_0_0_n_n.rhsIdx (ix2 p j) ((contrEquiv1 dot_S4096x128_S128x128_S4096x128_1_1_0_0_n_n 128 rfl rfl).symm k) = ix2 j k :=
    funext fun a => Fin.ext (by
      match a with
      | ⟨0, _⟩ => exact rhs_h_0 _ _
      | ⟨1, _⟩ => exact (rhs_h_1 _ _).trans hk)
  rw [el, er]

/-! The operand indices of the dot of the second hidden row against the third masked matrix, axis by axis: the left operand reads the output's row and the contracted
    coordinate, the right operand the output's column and the contracted coordinate. -/
theorem lhs_o_0 (i : S4096x64.Idx) (q : dot_S4096x128_S64x128_S4096x64_1_1_0_0_n_n.contr.Idx) :
    (dot_S4096x128_S64x128_S4096x64_1_1_0_0_n_n.lhsIdx i q 0).val = (i 0).val := by
  unfold DotDims.lhsIdx
  rw [dif_neg (show ¬(0 : Fin S4096x128.rank) ∈ dot_S4096x128_S64x128_S4096x64_1_1_0_0_n_n.lhsBatch by decide),
    dif_pos (show (0 : Fin S4096x128.rank) ∈ dot_S4096x128_S64x128_S4096x64_1_1_0_0_n_n.lhsNonContracting by decide)]
  rfl
theorem lhs_o_1 (i : S4096x64.Idx) (q : dot_S4096x128_S64x128_S4096x64_1_1_0_0_n_n.contr.Idx) :
    (dot_S4096x128_S64x128_S4096x64_1_1_0_0_n_n.lhsIdx i q 1).val = (q ⟨0, by decide⟩).val :=
  dot_S4096x128_S64x128_S4096x64_1_1_0_0_n_n.lhsIdx_val_of_single rfl i q
theorem rhs_o_0 (i : S4096x64.Idx) (q : dot_S4096x128_S64x128_S4096x64_1_1_0_0_n_n.contr.Idx) :
    (dot_S4096x128_S64x128_S4096x64_1_1_0_0_n_n.rhsIdx i q 0).val = (i 1).val := by
  unfold DotDims.rhsIdx
  rw [dif_neg (show ¬(0 : Fin S64x128.rank) ∈ dot_S4096x128_S64x128_S4096x64_1_1_0_0_n_n.rhsBatch by decide),
    dif_pos (show (0 : Fin S64x128.rank) ∈ dot_S4096x128_S64x128_S4096x64_1_1_0_0_n_n.rhsNonContracting by decide)]
  rfl
theorem rhs_o_1 (i : S4096x64.Idx) (q : dot_S4096x128_S64x128_S4096x64_1_1_0_0_n_n.contr.Idx) :
    (dot_S4096x128_S64x128_S4096x64_1_1_0_0_n_n.rhsIdx i q 1).val = (q ⟨0, by decide⟩).val :=
  dot_S4096x128_S64x128_S4096x64_1_1_0_0_n_n.rhsIdx_val_of_single rfl i q

/-- That dot at row `p` and unit `j`: the accumulator there plus the sum over the 128 contracted coordinates of the left
    operand's row `p` times the right operand's row `j`. -/
theorem mm_o_apply (a : FVec Ideal S4096x128 .bf16) (w : FVec Ideal S64x128 .bf16) (acc : FVec Ideal S4096x64 .f32) (p : Fin 4096) (j : Fin 64) :
    matmul dot_S4096x128_S64x128_S4096x64_1_1_0_0_n_n none a w acc (ix2 p j)
      = acc (ix2 p j) + ∑ k : Fin 128, a (ix2 p k) * w (ix2 j k) := by
  refine (Ideal.matmul_apply dot_S4096x128_S64x128_S4096x64_1_1_0_0_n_n none a w acc (ix2 p j)).trans ?_
  refine congrArg (acc (ix2 p j) + ·) ?_
  rw [← Equiv.sum_comp (contrEquiv1 dot_S4096x128_S64x128_S4096x64_1_1_0_0_n_n 128 rfl rfl).symm]
  refine Finset.sum_congr rfl fun k _ => ?_
  have hk := contrEquiv1_symm_val dot_S4096x128_S64x128_S4096x64_1_1_0_0_n_n 128 rfl rfl k
  have el : dot_S4096x128_S64x128_S4096x64_1_1_0_0_n_n.lhsIdx (ix2 p j) ((contrEquiv1 dot_S4096x128_S64x128_S4096x64_1_1_0_0_n_n 128 rfl rfl).symm k) = ix2 p k :=
    funext fun a => Fin.ext (by
      match a with
      | ⟨0, _⟩ => exact lhs_o_0 _ _
      | ⟨1, _⟩ => exact (lhs_o_1 _ _).trans hk)
  have er : dot_S4096x128_S64x128_S4096x64_1_1_0_0_n_n.rhsIdx (ix2 p j) ((contrEquiv1 dot_S4096x128_S64x128_S4096x64_1_1_0_0_n_n 128 rfl rfl).symm k) = ix2 j k :=
    funext fun a => Fin.ext (by
      match a with
      | ⟨0, _⟩ => exact rhs_o_0 _ _
      | ⟨1, _⟩ => exact (rhs_o_1 _ _).trans hk)
  rw [el, er]

/-! ## The layers, entry by entry -/

/-- The first hidden layer's block as the body computes it: the two dots into zero blocks, added, plus the bias row on
    every row, clamped below at zero. -/
def hid1Block (x0 : Vec Ideal S4096x32 .f32) (x1 : Vec Ideal S4096x64 .f32) (x2 : Vec Ideal S128x32 .f32)
    (x3 : Vec Ideal S128x64 .f32) (x4 : Vec Ideal S1x128 .f32) : FVec Ideal S4096x128 .bf16 :=
  truncf .bf16 (maximumf (addf (addf
      (matmul dot_S4096x32_S128x32_S4096x128_1_1_0_0_n_n none (truncf .bf16 x0 bitsLt_bf16_f32)
        (truncf .bf16 (shapeCast S128x32 x2 shapeCasts_S128x32_S128x32) bitsLt_bf16_f32) (constant (F := Ideal) S4096x128 .f32 0x00000000#32))
      (matmul dot_S4096x64_S128x64_S4096x128_1_1_0_0_n_n none (truncf .bf16 x1 bitsLt_bf16_f32)
        (truncf .bf16 x3 bitsLt_bf16_f32) (constant (F := Ideal) S4096x128 .f32 0x00000000#32)))
      (broadcastTo S4096x128 (shapeCast S1x128 x4 shapeCasts_S1x128_S1x128) broadcasts_S1x128_S4096x128))
    (broadcast S4096x128 (Scalar.ofBits .f32 0x00000000#32))) bitsLt_bf16_f32

/-- The two hidden layers' payload is the second layer over the first layer's block. -/
theorem pay7_eq (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32) :
    k0_pay7 (F := Ideal) x0 x1 x2 x3 x5 x4 x6
      = truncf .bf16 (maximumf (addf
          (matmul dot_S4096x128_S128x128_S4096x128_1_1_0_0_n_n none (hid1Block x0 x1 x2 x3 x4)
            (truncf .bf16 (shapeCast S128x128 x5 shapeCasts_S128x128_S128x128) bitsLt_bf16_f32) (constant (F := Ideal) S4096x128 .f32 0x00000000#32))
          (broadcastTo S4096x128 (shapeCast S1x128 x6 shapeCasts_S1x128_S1x128) broadcasts_S1x128_S4096x128))
        (broadcast S4096x128 (Scalar.ofBits .f32 0x00000000#32))) bitsLt_bf16_f32 := rfl

/-- The first hidden layer's block at row `p`, unit `j`: the flow's first hidden layer of row `p`. The format changes and
    the casts to the same shape are identities; each dot is its sum of products; the bias row is read at its one row; the
    zero word is zero. -/
theorem hid1Block_apply (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) (p : Fin 4096) (j : Fin 128) :
    hid1Block x0 x1 x2 x3 x4 (ix2 p j)
      = Cert.Flow.hid1 (blockWeights x2 x3 x4 x5 x6 x7 x8) (Cert.Flow.row x0 p) (Cert.Flow.row x1 p) j := by
  unfold hid1Block
  show max (matmul dot_S4096x32_S128x32_S4096x128_1_1_0_0_n_n none _ _ _ (ix2 p j) + matmul dot_S4096x64_S128x64_S4096x128_1_1_0_0_n_n none _ _ _ (ix2 p j)
      + broadcastTo S4096x128 _ broadcasts_S1x128_S4096x128 (ix2 p j)) (Ideal.ofBits .f32 0x00000000#32) = _
  rw [mm_x_apply, mm_c_apply, broadcastTo_1b_ab_apply, shapeCast_self, shapeCast_self, Ideal.ofBits_zero_f32]
  show max ((Ideal.ofBits .f32 0x00000000#32 + _) + (Ideal.ofBits .f32 0x00000000#32 + _) + _) 0 = _
  rw [Ideal.ofBits_zero_f32, zero_add, zero_add]
  rfl

/-- The two hidden layers' payload at row `p`, unit `j`: the flow's second hidden layer over its first, of row `p`. The dot
    reads the first layer's block at all 128 units of the row, each the flow's first hidden value. -/
theorem pay7_apply (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) (p : Fin 4096) (j : Fin 128) :
    k0_pay7 (F := Ideal) x0 x1 x2 x3 x5 x4 x6 (ix2 p j)
      = Cert.Flow.hid2 (blockWeights x2 x3 x4 x5 x6 x7 x8)
          (Cert.Flow.hid1 (blockWeights x2 x3 x4 x5 x6 x7 x8) (Cert.Flow.row x0 p) (Cert.Flow.row x1 p)) j := by
  rw [pay7_eq]
  show max (matmul dot_S4096x128_S128x128_S4096x128_1_1_0_0_n_n none _ _ _ (ix2 p j)
      + broadcastTo S4096x128 _ broadcasts_S1x128_S4096x128 (ix2 p j)) (Ideal.ofBits .f32 0x00000000#32) = _
  rw [mm_h_apply, broadcastTo_1b_ab_apply, shapeCast_self, shapeCast_self, Ideal.ofBits_zero_f32]
  show max ((Ideal.ofBits .f32 0x00000000#32 + _) + _) 0 = _
  rw [Ideal.ofBits_zero_f32, zero_add,
    Finset.sum_congr rfl fun k _ => congrArg (· * _) (hid1Block_apply x0 x1 x2 x3 x4 x5 x6 x7 x8 p k)]
  rfl

/-- The output layer's block over the hidden layers' payload, as the body computes it (its accumulator the zero block). -/
abbrev outBlock (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) : FVec Ideal S4096x64 .f32 :=
  k0_pay1 (truncf .bf16 (shapeCast S64x128 x7 shapeCasts_S64x128_S64x128) bitsLt_bf16_f32) (shapeCast S1x64 x8 shapeCasts_S1x64_S1x64)
    (k0_pay7 x0 x1 x2 x3 x5 x4 x6) (broadcast S4096x64 (Scalar.ofBits .f32 0x00000000#32))

/-- The output layer's block at row `p`, entry `j`: the flow's 64 outputs of row `p`. -/
theorem outBlock_apply (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) (p : Fin 4096) (j : Fin 64) :
    outBlock x0 x1 x2 x3 x4 x5 x6 x7 x8 (ix2 p j)
      = Cert.Flow.outRow (blockWeights x2 x3 x4 x5 x6 x7 x8) (Cert.Flow.row x0 p) (Cert.Flow.row x1 p) j := by
  unfold outBlock k0_pay1
  show matmul dot_S4096x128_S64x128_S4096x64_1_1_0_0_n_n none _ _ _ (ix2 p j) + broadcastTo S4096x64 _ broadcasts_S1x64_S4096x64 (ix2 p j) = _
  rw [mm_o_apply, broadcastTo_1b_ab_apply, shapeCast_self, shapeCast_self]
  show (Ideal.ofBits .f32 0x00000000#32 + _) + _ = _
  rw [Ideal.ofBits_zero_f32, zero_add,
    Finset.sum_congr rfl fun k _ => congrArg (· * _) (pay7_apply x0 x1 x2 x3 x4 x5 x6 x7 x8 p k)]
  rfl

/-! ## The two output blocks -/

/-- The offsets of a whole-block access are zero on both axes. -/
theorem zero_offsets : (![0, 0] : Fin 2 → Nat) = fun _ => 0 :=
  funext fun a => by match a with | ⟨0, _⟩ => rfl | ⟨1, _⟩ => rfl

/-- The transformed block as one function of the loads, at row `p`, entry `q`: the shift is output `q`, the log-scale output
    `32 + q` between the two bounds; zero minus the log-scale is its negative. -/
theorem e9_apply (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) (p : Fin 4096) (q : Fin 32) :
    Cert.KernelIdeal.Value.E9 x0 x7 x8 x1 x2 x3 x5 x4 x6 (ix2 p q)
      = Cert.Flow.uRow (blockWeights x2 x3 x4 x5 x6 x7 x8) (Cert.Flow.row x0 p) (Cert.Flow.row x1 p) q := by
  have e0 : Cert.KernelIdeal.Value.ix9_0 (ix2 p q) = ix2 p q :=
    funext fun a => by match a with | ⟨0, _⟩ => rfl | ⟨1, _⟩ => rfl
  have e1 : Cert.KernelIdeal.Value.ix9_1 (ix2 p q) = ix2 p (⟨q.val, by omega⟩ : Fin 64) :=
    funext fun a => by match a with | ⟨0, _⟩ => rfl | ⟨1, _⟩ => rfl
  have e2 : Cert.KernelIdeal.Value.ix9_2 (ix2 p q) = ix2 p (⟨32 + q.val, by omega⟩ : Fin 64) :=
    funext fun a => by match a with | ⟨0, _⟩ => rfl | ⟨1, _⟩ => exact Fin.ext (Nat.add_comm _ _)
  show (x0 (Cert.KernelIdeal.Value.ix9_0 (ix2 p q))
        - outBlock x0 x1 x2 x3 x4 x5 x6 x7 x8 (Cert.KernelIdeal.Value.ix9_1 (ix2 p q)))
      * Ideal.exp (Ideal.ofBits .f32 0x00000000#32 - min (Ideal.ofBits .f32 0x40A00000#32) (max (Ideal.ofBits .f32 0xC0A00000#32)
          (outBlock x0 x1 x2 x3 x4 x5 x6 x7 x8 (Cert.KernelIdeal.Value.ix9_2 (ix2 p q))))) = _
  rw [e0, e1, e2, outBlock_apply, outBlock_apply, Ideal.ofBits_zero_f32, zero_sub]
  rfl

/-- The lane sum of a `[4096, 32]` block into the zero word, at row `p`: the sum of the row's 32 entries. -/
theorem laneSum_apply (src : FVec Ideal S4096x32 .f32) (hφ : FKind.Formats .f32)
    (hacc : (0x00000000#32 : BitVec 32) = 0x00000000#32) (p : Fin 4096) :
    multiReduction (F := Ideal) .add [1] S4096 src 0x00000000#32 reduces_S4096x32_S4096 hφ hacc (ix1 p)
      = ∑ k : Fin 32, src (ix2 p k) := by
  refine (Ideal.multiReduction_add_single src 0x00000000#32 reduces_S4096x32_S4096 hφ hacc (ix1 p)).trans ?_
  refine Finset.sum_congr rfl fun k _ => congrArg src ?_
  exact funext fun a => by match a with | ⟨0, _⟩ => rfl | ⟨1, _⟩ => rfl

/-- The log-determinant block as one function of the loads, at row `p`: zero minus the lane sum of the clamped log-scales. -/
theorem e10_apply (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) (p : Fin 4096) (q : Fin 1) :
    Cert.KernelIdeal.Value.E10 x7 x8 x0 x1 x2 x3 x5 x4 x6 (ix2 p q)
      = Cert.Flow.ldRow (blockWeights x2 x3 x4 x5 x6 x7 x8) (Cert.Flow.row x0 p) (Cert.Flow.row x1 p) := by
  have e0 : Cert.KernelIdeal.Value.ix10_0 (ix2 p q) = ix1 p :=
    funext fun a => by match a with | ⟨0, _⟩ => rfl
  show Ideal.ofBits .f32 0x00000000#32 - multiReduction (F := Ideal) .add [1] S4096 _ 0x00000000#32 reduces_S4096x32_S4096 (.inl rfl) rfl
      (Cert.KernelIdeal.Value.ix10_0 (ix2 p q)) = _
  rw [e0, Ideal.ofBits_zero_f32, zero_sub]
  refine congrArg (- ·) ((laneSum_apply _ (.inl rfl) rfl p).trans (Finset.sum_congr rfl fun k _ => ?_))
  show min (Ideal.ofBits .f32 0x40A00000#32) (max (Ideal.ofBits .f32 0xC0A00000#32)
      (extractStridedSlice S4096x32 ![0, 32] (outBlock x0 x1 x2 x3 x4 x5 x6 x7 x8) slices_S4096x64_o0_32_S4096x32 (ix2 p k))) = _
  rw [slice2_axis1_eq, outBlock_apply]
  rfl

/-- The transformed block at row `p`, entry `q`. -/
theorem out9_apply (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) (p : Fin 4096) (q : Fin 32) :
    out0_9 (F := Ideal) x0 x1 x2 x3 x4 x5 x6 x7 x8 (ix2 p q)
      = Cert.Flow.uRow (blockWeights x2 x3 x4 x5 x6 x7 x8) (Cert.Flow.row x0 p) (Cert.Flow.row x1 p) q := by
  unfold out0_9
  simp only [View.ld_unit_zero (S := S4096x32) zero_offsets,
    View.ld_unit_zero (S := S4096x64) zero_offsets,
    View.ld_unit_zero (S := S128x32) zero_offsets,
    View.ld_unit_zero (S := S128x64) zero_offsets,
    View.ld_unit_zero (S := S128x128) zero_offsets,
    View.ld_unit_zero (S := S64x128) zero_offsets,
    View.ld_unit_zero (S := S1x128) zero_offsets,
    View.ld_unit_zero (S := S1x64) zero_offsets]
  exact (Cert.KernelIdeal.Value.canon9_eq x0 x7 x8 x1 x2 x3 x5 x4 x6 (ix2 p q)).trans (e9_apply x0 x1 x2 x3 x4 x5 x6 x7 x8 p q)

/-- The log-determinant block at row `p`. -/
theorem out10_apply (x0 : Vec Ideal S4096x32 .f32) (x1 : Vec Ideal S4096x64 .f32) (x2 : Vec Ideal S128x32 .f32)
    (x3 : Vec Ideal S128x64 .f32) (x4 : Vec Ideal S1x128 .f32) (x5 : Vec Ideal S128x128 .f32) (x6 : Vec Ideal S1x128 .f32)
    (x7 : Vec Ideal S64x128 .f32) (x8 : Vec Ideal S1x64 .f32) (p : Fin 4096) (q : Fin 1) :
    out0_10 (F := Ideal) x0 x1 x2 x3 x4 x5 x6 x7 x8 (ix2 p q)
      = Cert.Flow.ldRow (blockWeights x2 x3 x4 x5 x6 x7 x8) (Cert.Flow.row x0 p) (Cert.Flow.row x1 p) := by
  unfold out0_10
  simp only [View.ld_unit_zero (S := S4096x32) zero_offsets,
    View.ld_unit_zero (S := S4096x64) zero_offsets,
    View.ld_unit_zero (S := S128x32) zero_offsets,
    View.ld_unit_zero (S := S128x64) zero_offsets,
    View.ld_unit_zero (S := S128x128) zero_offsets,
    View.ld_unit_zero (S := S64x128) zero_offsets,
    View.ld_unit_zero (S := S1x128) zero_offsets,
    View.ld_unit_zero (S := S1x64) zero_offsets]
  exact (Cert.KernelIdeal.Value.canon10_eq x7 x8 x0 x1 x2 x3 x5 x4 x6 (ix2 p q)).trans (e10_apply x0 x1 x2 x3 x4 x5 x6 x7 x8 p q)

end Cert.KernelIdeal.Point

end
-- ==== Proof.KernelArrays.lean ====
/-
  From one grid point's blocks to the whole arrays. The grid has 128 points; point `t` takes rows `4096 t … 4096 t + 4095`
  of `x` and `cond`, every weight and bias block whole, and writes rows `4096 t …` of the two results. Row `p` of the point's
  output blocks is the flow step of row `p` of its input blocks (Proof/KernelPoint.lean), which is row `4096 t + p` of the
  arguments; the 128 row ranges tile the 524288 rows, so each result array is the flow step of the whole batch.
-/
import proofs.«134623_j54829552501285_1_alg».proof.Proof.Gen.KernelIdeal.Value
import proofs.«134623_j54829552501285_1_alg».proof.Proof.KernelHost
import proofs.«134623_j54829552501285_1_alg».proof.Proof.KernelPoint
import proofs.«134623_j54829552501285_1_alg».proof.Proof.Flow
import Idealize.ShloMosaic.Lib.Pipeline.Value
import Idealize.ShloMosaic.Lib.ValueIdx

noncomputable section

namespace Cert.KernelIdeal.Arrays

open Cert.KernelIdeal Cert.KernelIdeal.Gen Cert.KernelIdeal.Masks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The weights as the kernel's program uses them: each matrix argument times its mask, each bias by its one coordinate,
    the log-scale's bounds the two literals. -/
def kerWeights (W1 : FVec Ideal S128x32 .f32) (b1 : FVec Ideal S128 .f32) (Wc : FVec Ideal S128x64 .f32)
    (W2 : FVec Ideal S128x128 .f32) (b2 : FVec Ideal S128 .f32) (W3 : FVec Ideal S64x128 .f32) (b3 : FVec Ideal S64 .f32) :
    Cert.Flow.Weights :=
  Cert.Flow.weightsOf (mulf W1 maskIn) Wc (fun j => b1 (ix1 j)) (mulf W2 maskHid) (fun j => b2 (ix1 j)) (mulf W3 maskOut)
    (fun j => b3 (ix1 j)) (Ideal.ofBits .f32 0xC0A00000#32) (Ideal.ofBits .f32 0x40A00000#32)

/-- The weights of the launch on core `c`. -/
abbrev wts (c : Dev nD) : Cert.Flow.Weights :=
  kerWeights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Entry `i` of the transformed batch is entry `j` of row `r`'s transform, for the coordinates `(r, j)` of `i`. -/
theorem U_at {B : Nat} (θ : Cert.Flow.Weights) (x : (⟨2, ![B, 32]⟩ : Shape).Idx → EReal) (cond : (⟨2, ![B, 64]⟩ : Shape).Idx → EReal)
    (i : (⟨2, ![B, 32]⟩ : Shape).Idx) (r : Fin B) (j : Fin 32) (h0 : (i 0).val = r.val) (h1 : (i 1).val = j.val) :
    Cert.Flow.U θ x cond i = Cert.Flow.uRow θ (Cert.Flow.row x r) (Cert.Flow.row cond r) j := by
  have hi : i = ix2 r j := by
    funext a; apply Fin.ext
    match a with
    | ⟨0, _⟩ => exact h0
    | ⟨1, _⟩ => exact h1
  subst hi; rfl

/-- Entry `i` of the log-determinants is row `r`'s, for the row coordinate `r` of `i`. -/
theorem L_at {B : Nat} (θ : Cert.Flow.Weights) (x : (⟨2, ![B, 32]⟩ : Shape).Idx → EReal) (cond : (⟨2, ![B, 64]⟩ : Shape).Idx → EReal)
    (i : (⟨2, ![B, 1]⟩ : Shape).Idx) (r : Fin B) (h0 : (i 0).val = r.val) :
    Cert.Flow.L θ x cond i = Cert.Flow.ldRow θ (Cert.Flow.row x r) (Cert.Flow.row cond r) := by
  have hr : i 0 = r := Fin.ext h0
  show Cert.Flow.ldRow θ (Cert.Flow.row x (i 0)) (Cert.Flow.row cond (i 0)) = _
  rw [hr]

/-! ## The index maps over the grid -/

/-- Point `t` takes block `(t, 0)` of `x`, `cond` and the two results, and block `(0, 0)` of every weight and bias. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The grid has 128 points. -/
theorem t_lt (t : Fin cfg0.N) : t.val < 128 := by
  have h := t.isLt
  have hN : cfg0.N = 128 := N_0
  omega

/-! ## The point's blocks, each at its literal type -/

abbrev xblk (c : Dev nD) (t : Fin cfg0.N) : FVec Ideal S4096x32 .f32 := iblk m c 0 t
abbrev cblk (c : Dev nD) (t : Fin cfg0.N) : FVec Ideal S4096x64 .f32 := iblk m c 1 t
abbrev w1blk (c : Dev nD) (t : Fin cfg0.N) : FVec Ideal S128x32 .f32 := iblk m c 2 t
abbrev wcblk (c : Dev nD) (t : Fin cfg0.N) : FVec Ideal S128x64 .f32 := iblk m c 3 t
abbrev b1blk (c : Dev nD) (t : Fin cfg0.N) : FVec Ideal S1x128 .f32 := iblk m c 4 t
abbrev w2blk (c : Dev nD) (t : Fin cfg0.N) : FVec Ideal S128x128 .f32 := iblk m c 5 t
abbrev b2blk (c : Dev nD) (t : Fin cfg0.N) : FVec Ideal S1x128 .f32 := iblk m c 6 t
abbrev w3blk (c : Dev nD) (t : Fin cfg0.N) : FVec Ideal S64x128 .f32 := iblk m c 7 t
abbrev b3blk (c : Dev nD) (t : Fin cfg0.N) : FVec Ideal S1x64 .f32 := iblk m c 8 t

/-- Row `p` of point `t`'s `x` block is row `4096 t + p` of `x`. -/
theorem xblk_row (c : Dev nD) (t : Fin cfg0.N) (p : Fin 4096) (r : Fin 524288) (hr : r.val = t.val * 4096 + p.val) :
    Cert.Flow.row (xblk m c t) p = Cert.Flow.row (m ((c : Thread nD τ).loc main_arg0)) r := by
  funext k
  obtain ⟨e00, e01, e10, e11, e20, e21, e30, e31, e40, e41, e50, e51, e60, e61, e70, e71, e80, e81, e90, e91, ea0, ea1⟩ := idx_facts t
  show iblk m c 0 t (ix2 p k) = (m ((c : Thread nD τ).loc main_arg0)) (ix2 r k)
  unfold iblk
  rw [View.read_apply]
  refine (congrFun (V_main_arg0 m c) _).trans ?_
  congr 1
  funext a; apply Fin.ext
  match a with
  | ⟨0, _⟩ => show win0_0.index t (0 : Fin 2) * 4096 + 1 * p.val = r.val; omega
  | ⟨1, _⟩ => show win0_0.index t (1 : Fin 2) * 32 + 1 * k.val = k.val; omega

/-- Row `p` of point `t`'s `cond` block is row `4096 t + p` of `cond`. -/
theorem cblk_row (c : Dev nD) (t : Fin cfg0.N) (p : Fin 4096) (r : Fin 524288) (hr : r.val = t.val * 4096 + p.val) :
    Cert.Flow.row (cblk m c t) p = Cert.Flow.row (m ((c : Thread nD τ).loc main_arg1)) r := by
  funext k
  obtain ⟨e00, e01, e10, e11, e20, e21, e30, e31, e40, e41, e50, e51, e60, e61, e70, e71, e80, e81, e90, e91, ea0, ea1⟩ := idx_facts t
  show iblk m c 1 t (ix2 p k) = (m ((c : Thread nD τ).loc main_arg1)) (ix2 r k)
  unfold iblk
  rw [View.read_apply]
  refine (congrFun (V_main_arg1 m c) _).trans ?_
  congr 1
  funext a; apply Fin.ext
  match a with
  | ⟨0, _⟩ => show win0_1.index t (0 : Fin 2) * 4096 + 1 * p.val = r.val; omega
  | ⟨1, _⟩ => show win0_1.index t (1 : Fin 2) * 64 + 1 * k.val = k.val; omega

/-- The first layer's matrix block is the whole masked matrix. -/
theorem w1blk_eq (c : Dev nD) (t : Fin cfg0.N) : w1blk m c t = mulf (F := Ideal) (m ((c : Thread nD τ).loc main_arg2)) maskIn := by
  funext y
  obtain ⟨e00, e01, e10, e11, e20, e21, e30, e31, e40, e41, e50, e51, e60, e61, e70, e71, e80, e81, e90, e91, ea0, ea1⟩ := idx_facts t
  show iblk m c 2 t y = _
  unfold iblk
  rw [View.read_apply]
  refine (congrFun (Host.V_v25 m c) _).trans ?_
  congr 1
  funext a; apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega

/-- The conditioning matrix block is the whole argument. -/
theorem wcblk_eq (c : Dev nD) (t : Fin cfg0.N) : wcblk m c t = (m ((c : Thread nD τ).loc main_arg4)) := by
  funext y
  obtain ⟨e00, e01, e10, e11, e20, e21, e30, e31, e40, e41, e50, e51, e60, e61, e70, e71, e80, e81, e90, e91, ea0, ea1⟩ := idx_facts t
  show iblk m c 3 t y = _
  unfold iblk
  rw [View.read_apply]
  refine (congrFun (V_main_arg4 m c) _).trans ?_
  congr 1
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The second layer's matrix block is the whole masked matrix. -/
theorem w2blk_eq (c : Dev nD) (t : Fin cfg0.N) : w2blk m c t = mulf (F := Ideal) (m ((c : Thread nD τ).loc main_arg5)) maskHid := by
  funext y
  obtain ⟨e00, e01, e10, e11, e20, e21, e30, e31, e40, e41, e50, e51, e60, e61, e70, e71, e80, e81, e90, e91, ea0, ea1⟩ := idx_facts t
  show iblk m c 5 t y = _
  unfold iblk
  rw [View.read_apply]
  refine (congrFun (Host.V_v26 m c) _).trans ?_
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The output layer's matrix block is the whole masked matrix. -/
theorem w3blk_eq (c : Dev nD) (t : Fin cfg0.N) : w3blk m c t = mulf (F := Ideal) (m ((c : Thread nD τ).loc main_arg7)) maskOut := by
  funext y
  obtain ⟨e00, e01, e10, e11, e20, e21, e30, e31, e40, e41, e50, e51, e60, e61, e70, e71, e80, e81, e90, e91, ea0, ea1⟩ := idx_facts t
  show iblk m c 7 t y = _
  unfold iblk
  rw [View.read_apply]
  refine (congrFun (Host.V_v27 m c) _).trans ?_
  congr 1
  funext a; apply Fin.ext
  match a with
  | ⟨0, _⟩ => show win0_7.index t (0 : Fin 2) * 64 + 1 * (y 0).val = (y 0).val; omega
  | ⟨1, _⟩ => show win0_7.index t (1 : Fin 2) * 128 + 1 * (y 1).val = (y 1).val; omega

/-- Entry `j` of the first bias's one-row block is entry `j` of the argument. -/
theorem b1blk_eq (c : Dev nD) (t : Fin cfg0.N) (j : Fin 128) : b1blk m c t (ix2 (0 : Fin 1) j) = (m ((c : Thread nD τ).loc main_arg3)) (ix1 j) := by
  obtain ⟨e00, e01, e10, e11, e20, e21, e30, e31, e40, e41, e50, e51, e60, e61, e70, e71, e80, e81, e90, e91, ea0, ea1⟩ := idx_facts t
  show iblk m c 4 t (ix2 (0 : Fin 1) j) = _
  unfold iblk
  rw [View.read_apply]
  refine (congrFun (Host.V_v28 m c) _).trans ?_
  refine shapeCast_apply _ _ _ (ix1 j) ?_
  rw [Shape.rowMajor_val_one, Shape.rowMajor_val_two]
  show j.val = (win0_4.index t (0 : Fin 2) * 1 + 1 * 0) * 128 + (win0_4.index t (1 : Fin 2) * 128 + 1 * j.val)
  omega

/-- Entry `j` of the second bias's one-row block is entry `j` of the argument. -/
theorem b2blk_eq (c : Dev nD) (t : Fin cfg0.N) (j : Fin 128) : b2blk m c t (ix2 (0 : Fin 1) j) = (m ((c : Thread nD τ).loc main_arg6)) (ix1 j) := by
  obtain ⟨e00, e01, e10, e11, e20, e21, e30, e31, e40, e41, e50, e51, e60, e61, e70, e71, e80, e81, e90, e91, ea0, ea1⟩ := idx_facts t
  show iblk m c 6 t (ix2 (0 : Fin 1) j) = _
  unfold iblk
  rw [View.read_apply]
  refine (congrFun (Host.V_v29 m c) _).trans ?_
  refine shapeCast_apply _ _ _ (ix1 j) ?_
  rw [Shape.rowMajor_val_one, Shape.rowMajor_val_two]
  show j.val = (win0_6.index t (0 : Fin 2) * 1 + 1 * 0) * 128 + (win0_6.index t (1 : Fin 2) * 128 + 1 * j.val)
  omega

/-- Entry `j` of the output bias's one-row block is entry `j` of the argument. -/
theorem b3blk_eq (c : Dev nD) (t : Fin cfg0.N) (j : Fin 64) : b3blk m c t (ix2 (0 : Fin 1) j) = (m ((c : Thread nD τ).loc main_arg8)) (ix1 j) := by
  obtain ⟨e00, e01, e10, e11, e20, e21, e30, e31, e40, e41, e50, e51, e60, e61, e70, e71, e80, e81, e90, e91, ea0, ea1⟩ := idx_facts t
  show iblk m c 8 t (ix2 (0 : Fin 1) j) = _
  unfold iblk
  rw [View.read_apply]
  refine (congrFun (Host.V_v30 m c) _).trans ?_
  refine shapeCast_apply _ _ _ (ix1 j) ?_
  rw [Shape.rowMajor_val_one, Shape.rowMajor_val_two]
  show j.val = (win0_8.index t (0 : Fin 2) * 1 + 1 * 0) * 64 + (win0_8.index t (1 : Fin 2) * 64 + 1 * j.val)
  omega

/-- The weights the body reads from its blocks at any point are the launch's weights. -/
theorem blockWeights_eq (c : Dev nD) (t : Fin cfg0.N) :
    Cert.KernelIdeal.Point.blockWeights (w1blk m c t) (wcblk m c t) (b1blk m c t) (w2blk m c t) (b2blk m c t) (w3blk m c t) (b3blk m c t) = wts m c := by
  have h1 : (fun j : Fin 128 => b1blk m c t (ix2 (0 : Fin 1) j)) = fun j => (m ((c : Thread nD τ).loc main_arg3)) (ix1 j) := funext (b1blk_eq m c t)
  have h2 : (fun j : Fin 128 => b2blk m c t (ix2 (0 : Fin 1) j)) = fun j => (m ((c : Thread nD τ).loc main_arg6)) (ix1 j) := funext (b2blk_eq m c t)
  have h3 : (fun j : Fin 64 => b3blk m c t (ix2 (0 : Fin 1) j)) = fun j => (m ((c : Thread nD τ).loc main_arg8)) (ix1 j) := funext (b3blk_eq m c t)
  unfold Cert.KernelIdeal.Point.blockWeights wts kerWeights
  rw [w1blk_eq, wcblk_eq, w2blk_eq, w3blk_eq, h1, h2, h3]

/-! ## The transformed batch -/

/-- The transformed block a point leaves, as a function of the block index: row `y 0` of the block is row `4096 t + y 0`
    of the batch. -/
theorem out9_block (c : Dev nD) (t : Fin cfg0.N) :
    out0_9 (iblk m c 0 t) (iblk m c 1 t) (iblk m c 2 t) (iblk m c 3 t) (iblk m c 4 t) (iblk m c 5 t) (iblk m c 6 t) (iblk m c 7 t) (iblk m c 8 t)
      = fun y : S4096x32.Idx => Cert.Flow.U (wts m c) (m ((c : Thread nD τ).loc main_arg0)) (m ((c : Thread nD τ).loc main_arg1))
          (ix2 (⟨t.val * 4096 + (y 0).val, by have ht := t_lt t; have h : (y 0).val < 4096 := (y 0).isLt; show _ < 524288; omega⟩ : Fin 524288) (y 1)) := by
  funext y
  obtain ⟨p, q, rfl⟩ : ∃ (p : Fin 4096) (q : Fin 32), y = ix2 p q := ⟨y 0, y 1, eq_ix2 y⟩
  have ht : t.val < 128 := t_lt t
  show out0_9 (F := Ideal) (xblk m c t) (cblk m c t) (w1blk m c t) (wcblk m c t) (b1blk m c t) (w2blk m c t) (b2blk m c t) (w3blk m c t) (b3blk m c t) (ix2 p q) = _
  rw [Cert.KernelIdeal.Point.out9_apply, blockWeights_eq,
    xblk_row m c t p ⟨t.val * 4096 + p.val, by omega⟩ rfl, cblk_row m c t p ⟨t.val * 4096 + p.val, by omega⟩ rfl]
  rfl

/-- What point `t` writes back to the first result is block `t` of the whole batch's transform. -/
theorem flushed9_eq (c : Dev nD) (t : Fin cfg0.N) :
    (dats m 0 c).flushed 9 t
      = ((cfg0.win 9).blk t).view.read (Elt Ideal) (Cert.Flow.U (wts m c) (m ((c : Thread nD τ).loc main_arg0)) (m ((c : Thread nD τ).loc main_arg1))) := by
  rw [Cert.KernelIdeal.Value.flushed9, out9_block]
  obtain ⟨e00, e01, e10, e11, e20, e21, e30, e31, e40, e41, e50, e51, e60, e61, e70, e71, e80, e81, e90, e91, ea0, ea1⟩ := idx_facts t
  funext j
  show Cert.Flow.U (wts m c) (m ((c : Thread nD τ).loc main_arg0)) (m ((c : Thread nD τ).loc main_arg1)) _ = Cert.Flow.U (wts m c) (m ((c : Thread nD τ).loc main_arg0)) (m ((c : Thread nD τ).loc main_arg1)) (((cfg0.win 9).blk t).view.emb j)
  congr 1
  funext a; apply Fin.ext
  match a with
  | ⟨0, _⟩ => show t.val * 4096 + (j 0).val = win0_9.index t (0 : Fin 2) * 4096 + 1 * (j 0).val; omega
  | ⟨1, _⟩ => show (j 1).val = win0_9.index t (1 : Fin 2) * 32 + 1 * (j 1).val; omega

/-- An index of the first result is in point `t`'s block iff each coordinate is in the block's range. -/
theorem mem_blk9 (t : Fin cfg0.N) (i : S524288x32.Idx) :
    i ∈ ((cfg0.win 9).blk t).view.set ↔ ∀ a : Fin 2, win0_9.index t a * S4096x32.size a ≤ (i a).val ∧ (i a).val < win0_9.index t a * S4096x32.size a + S4096x32.size a := by
  show i ∈ ((View.whole main_v31_0).slice (win0_9.rect t)).set ↔ _
  rw [View.set_slice_whole, Rect.mem_set_unit]
  exact Iff.rfl

/-- Every index of the first result is in the block of the point that takes its row. -/
theorem cover9 (i : S524288x32.Idx) : ∃ t : Fin cfg0.N, (cfg0.win 9).flush t = true ∧ i ∈ ((cfg0.win 9).blk t).view.set := by
  have hi0 : (i 0).val < 524288 := (i 0).isLt
  have hi1 : (i 1).val < 32 := (i 1).isLt
  have hN : cfg0.N = 128 := N_0
  refine ⟨⟨(i 0).val / 4096, by rw [hN]; omega⟩, flush0_9 _, ?_⟩
  rw [mem_blk9]
  obtain ⟨e00, e01, e10, e11, e20, e21, e30, e31, e40, e41, e50, e51, e60, e61, e70, e71, e80, e81, e90, e91, ea0, ea1⟩ := idx_facts ⟨(i 0).val / 4096, by rw [hN]; omega⟩
  intro a
  match a with
  | ⟨0, _⟩ => show win0_9.index _ (0 : Fin 2) * 4096 ≤ (i 0).val ∧ (i 0).val < win0_9.index _ (0 : Fin 2) * 4096 + 4096; rw [e90]; show (i 0).val / 4096 * 4096 ≤ (i 0).val ∧ (i 0).val < (i 0).val / 4096 * 4096 + 4096; omega
  | ⟨1, _⟩ => show win0_9.index _ (1 : Fin 2) * 32 ≤ (i 1).val ∧ (i 1).val < win0_9.index _ (1 : Fin 2) * 32 + 32; rw [e91]; omega

/-- The first result after the run is the whole batch's transform. -/
theorem final9 (c : Dev nD) : (dats m 0 c).arrAt 9 cfg0.N = Cert.Flow.U (wts m c) (m ((c : Thread nD τ).loc main_arg0)) (m ((c : Thread nD τ).loc main_arg1)) :=
  (dats m 0 c).arrAt_eq_of_cover 9 _ (fun t _ => flushed9_eq m c t) cover9

/-! ## The log-determinants -/

/-- The log-determinant block a point leaves, as a function of the block index. -/
theorem out10_block (c : Dev nD) (t : Fin cfg0.N) :
    out0_10 (iblk m c 0 t) (iblk m c 1 t) (iblk m c 2 t) (iblk m c 3 t) (iblk m c 4 t) (iblk m c 5 t) (iblk m c 6 t) (iblk m c 7 t) (iblk m c 8 t)
      = fun y : S4096x1.Idx => Cert.Flow.L (wts m c) (m ((c : Thread nD τ).loc main_arg0)) (m ((c : Thread nD τ).loc main_arg1))
          (ix2 (⟨t.val * 4096 + (y 0).val, by have ht := t_lt t; have h : (y 0).val < 4096 := (y 0).isLt; show _ < 524288; omega⟩ : Fin 524288) (y 1)) := by
  funext y
  obtain ⟨p, q, rfl⟩ : ∃ (p : Fin 4096) (q : Fin 1), y = ix2 p q := ⟨y 0, y 1, eq_ix2 y⟩
  have ht : t.val < 128 := t_lt t
  show out0_10 (F := Ideal) (xblk m c t) (cblk m c t) (w1blk m c t) (wcblk m c t) (b1blk m c t) (w2blk m c t) (b2blk m c t) (w3blk m c t) (b3blk m c t) (ix2 p q) = _
  rw [Cert.KernelIdeal.Point.out10_apply, blockWeights_eq,
    xblk_row m c t p ⟨t.val * 4096 + p.val, by omega⟩ rfl, cblk_row m c t p ⟨t.val * 4096 + p.val, by omega⟩ rfl]
  rfl

/-- What point `t` writes back to the second result is block `t` of the whole batch's log-determinants. -/
theorem flushed10_eq (c : Dev nD) (t : Fin cfg0.N) :
    (dats m 0 c).flushed 10 t
      = ((cfg0.win 10).blk t).view.read (Elt Ideal) (Cert.Flow.L (wts m c) (m ((c : Thread nD τ).loc main_arg0)) (m ((c : Thread nD τ).loc main_arg1))) := by
  rw [Cert.KernelIdeal.Value.flushed10, out10_block]
  obtain ⟨e00, e01, e10, e11, e20, e21, e30, e31, e40, e41, e50, e51, e60, e61, e70, e71, e80, e81, e90, e91, ea0, ea1⟩ := idx_facts t
  funext j
  show Cert.Flow.L (wts m c) (m ((c : Thread nD τ).loc main_arg0)) (m ((c : Thread nD τ).loc main_arg1)) _ = Cert.Flow.L (wts m c) (m ((c : Thread nD τ).loc main_arg0)) (m ((c : Thread nD τ).loc main_arg1)) (((cfg0.win 10).blk t).view.emb j)
  congr 1
  funext a; apply Fin.ext
  match a with
  | ⟨0, _⟩ => show t.val * 4096 + (j 0).val = win0_10.index t (0 : Fin 2) * 4096 + 1 * (j 0).val; omega
  | ⟨1, _⟩ => show (j 1).val = win0_10.index t (1 : Fin 2) * 1 + 1 * (j 1).val; omega

/-- An index of the second result is in point `t`'s block iff each coordinate is in the block's range. -/
theorem mem_blk10 (t : Fin cfg0.N) (i : S524288x1.Idx) :
    i ∈ ((cfg0.win 10).blk t).view.set ↔ ∀ a : Fin 2, win0_10.index t a * S4096x1.size a ≤ (i a).val ∧ (i a).val < win0_10.index t a * S4096x1.size a + S4096x1.size a := by
  show i ∈ ((View.whole main_v31_1).slice (win0_10.rect t)).set ↔ _
  rw [View.set_slice_whole, Rect.mem_set_unit]
  exact Iff.rfl

/-- Every index of the second result is in the block of the point that takes its row. -/
theorem cover10 (i : S524288x1.Idx) : ∃ t : Fin cfg0.N, (cfg0.win 10).flush t = true ∧ i ∈ ((cfg0.win 10).blk t).view.set := by
  have hi0 : (i 0).val < 524288 := (i 0).isLt
  have hi1 : (i 1).val < 1 := (i 1).isLt
  have hN : cfg0.N = 128 := N_0
  refine ⟨⟨(i 0).val / 4096, by rw [hN]; omega⟩, flush0_10 _, ?_⟩
  rw [mem_blk10]
  obtain ⟨e00, e01, e10, e11, e20, e21, e30, e31, e40, e41, e50, e51, e60, e61, e70, e71, e80, e81, e90, e91, ea0, ea1⟩ := idx_facts ⟨(i 0).val / 4096, by rw [hN]; omega⟩
  intro a
  match a with
  | ⟨0, _⟩ => show win0_10.index _ (0 : Fin 2) * 4096 ≤ (i 0).val ∧ (i 0).val < win0_10.index _ (0 : Fin 2) * 4096 + 4096; rw [ea0]; show (i 0).val / 4096 * 4096 ≤ (i 0).val ∧ (i 0).val < (i 0).val / 4096 * 4096 + 4096; omega
  | ⟨1, _⟩ => show win0_10.index _ (1 : Fin 2) * 1 ≤ (i 1).val ∧ (i 1).val < win0_10.index _ (1 : Fin 2) * 1 + 1; rw [ea1]; omega

/-- The second result after the run is the whole batch's log-determinants. -/
theorem final10 (c : Dev nD) : (dats m 0 c).arrAt 10 cfg0.N = Cert.Flow.L (wts m c) (m ((c : Thread nD τ).loc main_arg0)) (m ((c : Thread nD τ).loc main_arg1)) :=
  (dats m 0 c).arrAt_eq_of_cover 10 _ (fun t _ => flushed10_eq m c t) cover10

/-! ## The run -/

/-- Every weakly fair execution of the kernel's program ends with the two results at the flow step of the whole batch
    under the launch's weights, and the arguments unchanged. -/
theorem run : θ_run defs (onTc (τ := τ) (main (F := Ideal))) ⟨m, fun _ => 0, ρ⟩ fun r => ∀ c : Dev nD,
      r.2.mem ((c : Thread nD τ).loc main_v31_0) = Cert.Flow.U (wts m c) (m ((c : Thread nD τ).loc main_arg0)) (m ((c : Thread nD τ).loc main_arg1))
      ∧ r.2.mem ((c : Thread nD τ).loc main_v31_1) = Cert.Flow.L (wts m c) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Cert.KernelIdeal.Value.run_blocks m ρ)

end Cert.KernelIdeal.Arrays

end
-- ==== Proof.RefMasks.lean ====
/-
  The three masks of the autoregressive structure, as the reference computes them on the host before anything else: every
  hidden unit `i` has degree `i mod 31`, every input `k` degree `k`, every output `j` degree `(j mod 32) - 1`; a weight
  from a unit of degree `b` into a unit of degree `a` is kept when `a ≥ b`. The remainder is the floor remainder: the
  truncating one, moved by the modulus where its sign differs from the modulus's. Nothing below opens these terms: the
  two programs spell them with the same operations, and the certificate only needs that they are the same arrays.
-/
import proofs.«134623_j54829552501285_1_alg».proof.Proof.Gen.ReferenceIdeal

noncomputable section

namespace Cert.ReferenceIdeal.Masks

open Cert.ReferenceIdeal Cert.ReferenceIdeal.Gen Idealize.ShloMosaic Idealize.ShloMosaic.TcCoe

variable {F : FTy → Type} [FloatOps F]

/-- The modulus as the remainder uses it: `1` in place of `0`. -/
def modulus (n : BitVec 32) : IVec S_ 32 :=
  select (cmpi .eq (id (constantI S_ 32 n)) (constantI S_ 32 0#32)) (constantI S_ 32 1#32) (id (constantI S_ 32 n))

/-- The truncating remainders of `0, …, 127` by the modulus. -/
def trunc128 (n : BitVec 32) : IVec S128 32 :=
  Host.remsi (iotaInDim S128 32 0) (broadcastInDim S128 ![] bcast_S_S128 (modulus n))

/-- The floor remainders of `0, …, 127`. -/
def mod128 (n : BitVec 32) : IVec S128 32 :=
  select
    (andi
      (cmpi .ne (cmpi .slt (trunc128 n) (broadcastInDim S128 ![] bcast_S_S128 (constantI S_ 32 0#32)))
        (broadcastInDim S128 ![] bcast_S_S128 (cmpi .slt (modulus n) (constantI S_ 32 0#32))))
      (cmpi .ne (trunc128 n) (broadcastInDim S128 ![] bcast_S_S128 (constantI S_ 32 0#32))))
    (addi (trunc128 n) (broadcastInDim S128 ![] bcast_S_S128 (modulus n)))
    (trunc128 n)

/-- The truncating remainders of `0, …, 63` by the modulus. -/
def trunc64 (n : BitVec 32) : IVec S64 32 :=
  Host.remsi (iotaInDim S64 32 0) (broadcastInDim S64 ![] bcast_S_S64 (modulus n))

/-- The floor remainders of `0, …, 63`. -/
def mod64 (n : BitVec 32) : IVec S64 32 :=
  select
    (andi
      (cmpi .ne (cmpi .slt (trunc64 n) (broadcastInDim S64 ![] bcast_S_S64 (constantI S_ 32 0#32)))
        (broadcastInDim S64 ![] bcast_S_S64 (cmpi .slt (modulus n) (constantI S_ 32 0#32))))
      (cmpi .ne (trunc64 n) (broadcastInDim S64 ![] bcast_S_S64 (constantI S_ 32 0#32))))
    (addi (trunc64 n) (broadcastInDim S64 ![] bcast_S_S64 (modulus n)))
    (trunc64 n)

/-- The hidden units' degrees. -/
def degHid : IVec S128 32 := mod128 31#32

/-- The outputs' degrees. -/
def degOut : IVec S64 32 := subi (mod64 32#32) (broadcastInDim S64 ![] bcast_S_S64 (constantI S_ 32 1#32))

/-- Hidden unit against input: kept when the unit's degree is at least the input's. -/
def maskIn : FVec F S128x32 .f32 :=
  uitofp .f32 (cmpi .sge
    (broadcastInDim S128x32 ![0, 1] bcast_S128x1_S128x32_0_1 (broadcastInDim S128x1 ![0] bcast_S128_S128x1_0 degHid))
    (broadcastInDim S128x32 ![0, 1] bcast_S1x32_S128x32_0_1 (broadcastInDim S1x32 ![1] bcast_S32_S1x32_1 (iotaInDim S32 32 0))))

/-- Hidden unit against hidden unit. -/
def maskHid : FVec F S128x128 .f32 :=
  uitofp .f32 (cmpi .sge
    (broadcastInDim S128x128 ![0, 1] bcast_S128x1_S128x128_0_1 (broadcastInDim S128x1 ![0] bcast_S128_S128x1_0 degHid))
    (broadcastInDim S128x128 ![0, 1] bcast_S1x128_S128x128_0_1 (broadcastInDim S1x128 ![1] bcast_S128_S1x128_1 degHid)))

/-- Output against hidden unit. -/
def maskOut : FVec F S64x128 .f32 :=
  uitofp .f32 (cmpi .sge
    (broadcastInDim S64x128 ![0, 1] bcast_S64x1_S64x128_0_1 (broadcastInDim S64x1 ![0] bcast_S64_S64x1_0 degOut))
    (broadcastInDim S64x128 ![0, 1] bcast_S1x128_S64x128_0_1 (broadcastInDim S1x128 ![1] bcast_S128_S1x128_1 degHid)))

end Cert.ReferenceIdeal.Masks

end
-- ==== Proof.RefTerm.lean ====
/-
  The reference's two results as pure functions of its nine arguments, stage by stage in the reference's own operations:
  the masked weight matrices transposed, each layer a host matrix product plus the bias broadcast over the rows, the two
  clamps at zero, the two column slices of the output, the log-scale clamped between the two literals, and then
  `(x - shift) · exp (-scale)` and minus the row sums of the clamped log-scale.
-/
import proofs.«134623_j54829552501285_1_alg».proof.Proof.RefMasks

noncomputable section

namespace Cert.ReferenceIdeal.Term

open Cert.ReferenceIdeal Cert.ReferenceIdeal.Gen Cert.ReferenceIdeal.Masks Idealize.ShloMosaic Idealize.ShloMosaic.TcCoe

variable {F : FTy → Type} [FloatOps F]

/-- A hidden layer's clamp below at zero. -/
def relu (v : FVec F S524288x128 .f32) : FVec F S524288x128 .f32 :=
  maximumf v (broadcastInDim S524288x128 ![] bcast_S_S524288x128 (constant S_ .f32 0x00000000#32))

/-- The first hidden layer of every row: `max (x · (W1 ∘ mask)ᵀ + b1 + cond · Wcᵀ) 0`. -/
def hidden1 (x : FVec F S524288x32 .f32) (cond : FVec F S524288x64 .f32) (W1 : FVec F S128x32 .f32) (b1 : FVec F S128 .f32)
    (Wc : FVec F S128x64 .f32) : FVec F S524288x128 .f32 :=
  relu (addf
    (addf
      (Host.dotGeneral dot_S524288x32_S32x128_S524288x128_1_0_0_1_n_n none x
        (transpose S32x128 [1, 0] (mulf W1 maskIn) transposes_S128x32_S32x128_1_0))
      (broadcastInDim S524288x128 ![0, 1] bcast_S1x128_S524288x128_0_1 (broadcastInDim S1x128 ![1] bcast_S128_S1x128_1 b1)))
    (Host.dotGeneral dot_S524288x64_S64x128_S524288x128_1_0_0_1_n_n none cond
      (transpose S64x128 [1, 0] Wc transposes_S128x64_S64x128_1_0)))

/-- The second hidden layer: `max (h · (W2 ∘ mask)ᵀ + b2) 0`. -/
def hidden2 (h : FVec F S524288x128 .f32) (W2 : FVec F S128x128 .f32) (b2 : FVec F S128 .f32) : FVec F S524288x128 .f32 :=
  relu (addf
    (Host.dotGeneral dot_S524288x128_S128x128_S524288x128_1_0_0_1_n_n none h
      (transpose S128x128 [1, 0] (mulf W2 maskHid) transposes_S128x128_S128x128_1_0))
    (broadcastInDim S524288x128 ![0, 1] bcast_S1x128_S524288x128_0_1 (broadcastInDim S1x128 ![1] bcast_S128_S1x128_1 b2)))

/-- The output layer: `h · (W3 ∘ mask)ᵀ + b3`, 64 columns. -/
def output (h : FVec F S524288x128 .f32) (W3 : FVec F S64x128 .f32) (b3 : FVec F S64 .f32) : FVec F S524288x64 .f32 :=
  addf
    (Host.dotGeneral dot_S524288x128_S128x64_S524288x64_1_0_0_1_n_n none h
      (transpose S128x64 [1, 0] (mulf W3 maskOut) transposes_S64x128_S128x64_1_0))
    (broadcastInDim S524288x64 ![0, 1] bcast_S1x64_S524288x64_0_1 (broadcastInDim S1x64 ![1] bcast_S64_S1x64_1 b3))

/-- The output of every row from the arguments. -/
def outAll (x : FVec F S524288x32 .f32) (cond : FVec F S524288x64 .f32) (W1 : FVec F S128x32 .f32) (b1 : FVec F S128 .f32)
    (Wc : FVec F S128x64 .f32) (W2 : FVec F S128x128 .f32) (b2 : FVec F S128 .f32) (W3 : FVec F S64x128 .f32)
    (b3 : FVec F S64 .f32) : FVec F S524288x64 .f32 :=
  output (hidden2 (hidden1 x cond W1 b1 Wc) W2 b2) W3 b3

/-- The shift: the output's first 32 columns. -/
def shiftOf (o : FVec F S524288x64 .f32) : FVec F S524288x32 .f32 :=
  extractStridedSlice S524288x32 ![0, 0] o slices_S524288x64_S524288x32_0_0

/-- The log-scale: the output's last 32 columns, clamped between the two literals. -/
def scaleOf (o : FVec F S524288x64 .f32) : FVec F S524288x32 .f32 :=
  minimumf (broadcastInDim S524288x32 ![] bcast_S_S524288x32 (id (constant S_ .f32 0x40A00000#32)))
    (maximumf (broadcastInDim S524288x32 ![] bcast_S_S524288x32 (id (constant S_ .f32 0xC0A00000#32)))
      (extractStridedSlice S524288x32 ![0, 32] o slices_S524288x64_S524288x32_0_32))

/-- The first result: `(x - shift) · exp (-scale)`. -/
def transformed (x : FVec F S524288x32 .f32) (cond : FVec F S524288x64 .f32) (W1 : FVec F S128x32 .f32) (b1 : FVec F S128 .f32)
    (Wc : FVec F S128x64 .f32) (W2 : FVec F S128x128 .f32) (b2 : FVec F S128 .f32) (W3 : FVec F S64x128 .f32)
    (b3 : FVec F S64 .f32) : FVec F S524288x32 .f32 :=
  mulf (subf x (shiftOf (outAll x cond W1 b1 Wc W2 b2 W3 b3)))
    (Host.exp (Host.negf (scaleOf (outAll x cond W1 b1 Wc W2 b2 W3 b3))))

/-- The second result: minus the sum over a row's 32 clamped log-scales, as a column. -/
def logdet (x : FVec F S524288x32 .f32) (cond : FVec F S524288x64 .f32) (W1 : FVec F S128x32 .f32) (b1 : FVec F S128 .f32)
    (Wc : FVec F S128x64 .f32) (W2 : FVec F S128x128 .f32) (b2 : FVec F S128 .f32) (W3 : FVec F S64x128 .f32)
    (b3 : FVec F S64 .f32) : FVec F S524288x1 .f32 :=
  Host.negf (broadcastInDim S524288x1 ![0] bcast_S524288_S524288x1_0
    (Host.reduceAdd (scaleOf (outAll x cond W1 b1 Wc W2 b2 W3 b3)) (constant S_ .f32 0x00000000#32)
      reducesTo_S524288x32_S524288_d1 h_S_))

end Cert.ReferenceIdeal.Term

end
-- ==== Proof.RefOps.lean ====
/-
  The reference's program as one straight line of host operations: the outlined helpers (the two floor remainders, each
  with its scalar choice of modulus, the two clamps at zero, the clamp of the log-scale) written out at their calls over
  the buffers of each call. The line is cut in two: the operations that build the three masks, and the layers after
  them. The program is that line, and every weakly fair execution ends with each buffer at the line's fold over the
  contents at launch.
-/
import proofs.«134623_j54829552501285_1_alg».proof.Proof.Gen.ReferenceIdeal
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The 68 operations up to the three masks: the index ranges, the floor remainder of `0 … 127` by 31 (21 operations,
    the choice of modulus among them), the floor remainder of `0 … 63` by 32 (21), the outputs' degrees, and the three
    comparisons of degrees turned into floats. -/
abbrev opsMasks : List (HloOp τ sig (Elt F)) :=
  [ nullary main_v0 (iotaInDim S32 32 0),
    nullary main_v1 (iotaInDim S128 32 0),
    nullary main_c (constantI S_ 32 31#32),
    TRef.unary (.of main_c : StableHlo.TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S128 ![] bcast_S_S128),
    TRef.binary (.of main_v1 : StableHlo.TRef sig ⟨S128, .i32⟩) main_call0.v3 main_call0.v4 Host.remsi,
    TRef.nullary main_call0.c_1 (constantI S_ 32 0#32),
    TRef.unary main_call0.c_1 main_call0.v5 (broadcastInDim S128 ![] bcast_S_S128),
    TRef.binary main_call0.v4 main_call0.v5 main_call0.v6 (cmpi .ne),
    TRef.nullary main_call0.c_2 (constantI S_ 32 0#32),
    TRef.unary main_call0.c_2 main_call0.v7 (broadcastInDim S128 ![] bcast_S_S128),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S128 ![] bcast_S_S128),
    TRef.binary main_call0.v8 main_call0.v10 main_call0.v11 (cmpi .ne),
    TRef.binary main_call0.v11 main_call0.v6 main_call0.v12 andi,
    TRef.unary main_call0.call0.v0 main_call0.v13 (broadcastInDim S128 ![] bcast_S_S128),
    TRef.binary main_call0.v4 main_call0.v13 main_call0.v14 addi,
    TRef.ternary main_call0.v12 main_call0.v14 main_call0.v4 main_call0.v15 select,
    nullary main_v3 (iotaInDim S64 32 0),
    nullary main_c_0 (constantI S_ 32 32#32),
    TRef.unary (.of main_c_0 : StableHlo.TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S64 ![] bcast_S_S64),
    TRef.binary (.of main_v3 : StableHlo.TRef sig ⟨S64, .i32⟩) main_call1.v3 main_call1.v4 Host.remsi,
    TRef.nullary main_call1.c_1 (constantI S_ 32 0#32),
    TRef.unary main_call1.c_1 main_call1.v5 (broadcastInDim S64 ![] bcast_S_S64),
    TRef.binary main_call1.v4 main_call1.v5 main_call1.v6 (cmpi .ne),
    TRef.nullary main_call1.c_2 (constantI S_ 32 0#32),
    TRef.unary main_call1.c_2 main_call1.v7 (broadcastInDim S64 ![] bcast_S_S64),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S64 ![] bcast_S_S64),
    TRef.binary main_call1.v8 main_call1.v10 main_call1.v11 (cmpi .ne),
    TRef.binary main_call1.v11 main_call1.v6 main_call1.v12 andi,
    TRef.unary main_call1.call0.v0 main_call1.v13 (broadcastInDim S64 ![] bcast_S_S64),
    TRef.binary main_call1.v4 main_call1.v13 main_call1.v14 addi,
    TRef.ternary main_call1.v12 main_call1.v14 main_call1.v4 main_call1.v15 select,
    nullary main_c_1 (constantI S_ 32 1#32),
    unary main_c_1 main_v5 (broadcastInDim S64 ![] bcast_S_S64 : (⟨S_, .i32⟩ : BufTy).Contents (Elt F) → (⟨S64, .i32⟩ : BufTy).Contents (Elt F)),
    binary main_v4 main_v5 main_v6 (subi : (⟨S64, .i32⟩ : BufTy).Contents (Elt F) → (⟨S64, .i32⟩ : BufTy).Contents (Elt F) → (⟨S64, .i32⟩ : BufTy).Contents (Elt F)),
    unary main_v2 main_v7 (broadcastInDim S128x1 ![0] bcast_S128_S128x1_0 : (⟨S128, .i32⟩ : BufTy).Contents (Elt F) → (⟨S128x1, .i32⟩ : BufTy).Contents (Elt F)),
    unary main_v0 main_v8 (broadcastInDim S1x32 ![1] bcast_S32_S1x32_1 : (⟨S32, .i32⟩ : BufTy).Contents (Elt F) → (⟨S1x32, .i32⟩ : BufTy).Contents (Elt F)),
    unary main_v7 main_v9 (broadcastInDim S128x32 ![0, 1] bcast_S128x1_S128x32_0_1 : (⟨S128x1, .i32⟩ : BufTy).Contents (Elt F) → (⟨S128x32, .i32⟩ : BufTy).Contents (Elt F)),
    unary main_v8 main_v10 (broadcastInDim S128x32 ![0, 1] bcast_S1x32_S128x32_0_1 : (⟨S1x32, .i32⟩ : BufTy).Contents (Elt F) → (⟨S128x32, .i32⟩ : BufTy).Contents (Elt F)),
    binary main_v9 main_v10 main_v11 (cmpi .sge : (⟨S128x32, .i32⟩ : BufTy).Contents (Elt F) → (⟨S128x32, .i32⟩ : BufTy).Contents (Elt F) → (⟨S128x32, .i1⟩ : BufTy).Contents (Elt F)),
    unary main_v11 main_v12 (uitofp .f32 : (⟨S128x32, .i1⟩ : BufTy).Contents (Elt F) → (⟨S128x32, .f32⟩ : BufTy).Contents (Elt F)),
    unary main_v2 main_v13 (broadcastInDim S128x1 ![0] bcast_S128_S128x1_0 : (⟨S128, .i32⟩ : BufTy).Contents (Elt F) → (⟨S128x1, .i32⟩ : BufTy).Contents (Elt F)),
    unary main_v2 main_v14 (broadcastInDim S1x128 ![1] bcast_S128_S1x128_1 : (⟨S128, .i32⟩ : BufTy).Contents (Elt F) → (⟨S1x128, .i32⟩ : BufTy).Contents (Elt F)),
    unary main_v13 main_v15 (broadcastInDim S128x128 ![0, 1] bcast_S128x1_S128x128_0_1 : (⟨S128x1, .i32⟩ : BufTy).Contents (Elt F) → (⟨S128x128, .i32⟩ : BufTy).Contents (Elt F)),
    unary main_v14 main_v16 (broadcastInDim S128x128 ![0, 1] bcast_S1x128_S128x128_0_1 : (⟨S1x128, .i32⟩ : BufTy).Contents (Elt F) → (⟨S128x128, .i32⟩ : BufTy).Contents (Elt F)),
    binary main_v15 main_v16 main_v17 (cmpi .sge : (⟨S128x128, .i32⟩ : BufTy).Contents (Elt F) → (⟨S128x128, .i32⟩ : BufTy).Contents (Elt F) → (⟨S128x128, .i1⟩ : BufTy).Contents (Elt F)),
    unary main_v17 main_v18 (uitofp .f32 : (⟨S128x128, .i1⟩ : BufTy).Contents (Elt F) → (⟨S128x128, .f32⟩ : BufTy).Contents (Elt F)),
    unary main_v6 main_v19 (broadcastInDim S64x1 ![0] bcast_S64_S64x1_0 : (⟨S64, .i32⟩ : BufTy).Contents (Elt F) → (⟨S64x1, .i32⟩ : BufTy).Contents (Elt F)),
    unary main_v2 main_v20 (broadcastInDim S1x128 ![1] bcast_S128_S1x128_1 : (⟨S128, .i32⟩ : BufTy).Contents (Elt F) → (⟨S1x128, .i32⟩ : BufTy).Contents (Elt F)),
    unary main_v19 main_v21 (broadcastInDim S64x128 ![0, 1] bcast_S64x1_S64x128_0_1 : (⟨S64x1, .i32⟩ : BufTy).Contents (Elt F) → (⟨S64x128, .i32⟩ : BufTy).Contents (Elt F)),
    unary main_v20 main_v22 (broadcastInDim S64x128 ![0, 1] bcast_S1x128_S64x128_0_1 : (⟨S1x128, .i32⟩ : BufTy).Contents (Elt F) → (⟨S64x128, .i32⟩ : BufTy).Contents (Elt F)),
    binary main_v21 main_v22 main_v23 (cmpi .sge : (⟨S64x128, .i32⟩ : BufTy).Contents (Elt F) → (⟨S64x128, .i32⟩ : BufTy).Contents (Elt F) → (⟨S64x128, .i1⟩ : BufTy).Contents (Elt F)),
    unary main_v23 main_v24 (uitofp .f32 : (⟨S64x128, .i1⟩ : BufTy).Contents (Elt F) → (⟨S64x128, .f32⟩ : BufTy).Contents (Elt F)) ]

/-- The 45 operations after the masks: each layer's masked weights transposed, its matrix product and bias, the clamp at
    zero (3 operations each time), the two column slices, the clamp of the log-scale between the two literals (6), and
    the two results. -/
abbrev opsLayers : List (HloOp τ sig (Elt F)) :=
  [ binary main_arg2 main_v12 main_v25 (mulf : (⟨S128x32, .f32⟩ : BufTy).Contents (Elt F) → (⟨S128x32, .f32⟩ : BufTy).Contents (Elt F) → (⟨S128x32, .f32⟩ : BufTy).Contents (Elt F)),
    unary main_v25 main_v26 ((transpose S32x128 [1, 0] · transposes_S128x32_S32x128_1_0) : (⟨S128x32, .f32⟩ : BufTy).Contents (Elt F) → (⟨S32x128, .f32⟩ : BufTy).Contents (Elt F)),
    binary main_arg0 main_v26 main_v27 ((fun l r => Host.dotGeneral dot_S524288x32_S32x128_S524288x128_1_0_0_1_n_n none l r) : (⟨S524288x32, .f32⟩ : BufTy).Contents (Elt F) → (⟨S32x128, .f32⟩ : BufTy).Contents (Elt F) → (⟨S524288x128, .f32⟩ : BufTy).Contents (Elt F)),
    unary main_arg3 main_v28 (broadcastInDim S1x128 ![1] bcast_S128_S1x128_1 : (⟨S128, .f32⟩ : BufTy).Contents (Elt F) → (⟨S1x128, .f32⟩ : BufTy).Contents (Elt F)),
    unary main_v28 main_v29 (broadcastInDim S524288x128 ![0, 1] bcast_S1x128_S524288x128_0_1 : (⟨S1x128, .f32⟩ : BufTy).Contents (Elt F) → (⟨S524288x128, .f32⟩ : BufTy).Contents (Elt F)),
    binary main_v27 main_v29 main_v30 (addf : (⟨S524288x128, .f32⟩ : BufTy).Contents (Elt F) → (⟨S524288x128, .f32⟩ : BufTy).Contents (Elt F) → (⟨S524288x128, .f32⟩ : BufTy).Contents (Elt F)),
    unary main_arg4 main_v31 ((transpose S64x128 [1, 0] · transposes_S128x64_S64x128_1_0) : (⟨S128x64, .f32⟩ : BufTy).Contents (Elt F) → (⟨S64x128, .f32⟩ : BufTy).Contents (Elt F)),
    binary main_arg1 main_v31 main_v32 ((fun l r => Host.dotGeneral dot_S524288x64_S64x128_S524288x128_1_0_0_1_n_n none l r) : (⟨S524288x64, .f32⟩ : BufTy).Contents (Elt F) → (⟨S64x128, .f32⟩ : BufTy).Contents (Elt F) → (⟨S524288x128, .f32⟩ : BufTy).Contents (Elt F)),
    binary main_v30 main_v32 main_v33 (addf : (⟨S524288x128, .f32⟩ : BufTy).Contents (Elt F) → (⟨S524288x128, .f32⟩ : BufTy).Contents (Elt F) → (⟨S524288x128, .f32⟩ : BufTy).Contents (Elt F)),
    TRef.nullary main_call2.cst (constant S_ .f32 0x00000000#32),
    TRef.unary main_call2.cst main_call2.v0 (broadcastInDim S524288x128 ![] bcast_S_S524288x128),
    TRef.binary (.of main_v33 : StableHlo.TRef sig ⟨S524288x128, .f32⟩) main_call2.v0 main_call2.v1 maximumf,
    binary main_arg5 main_v18 main_v35 (mulf : (⟨S128x128, .f32⟩ : BufTy).Contents (Elt F) → (⟨S128x128, .f32⟩ : BufTy).Contents (Elt F) → (⟨S128x128, .f32⟩ : BufTy).Contents (Elt F)),
    unary main_v35 main_v36 ((transpose S128x128 [1, 0] · transposes_S128x128_S128x128_1_0) : (⟨S128x128, .f32⟩ : BufTy).Contents (Elt F) → (⟨S128x128, .f32⟩ : BufTy).Contents (Elt F)),
    binary main_v34 main_v36 main_v37 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg6 main_v38 (broadcastInDim S1x128 ![1] bcast_S128_S1x128_1 : (⟨S128, .f32⟩ : BufTy).Contents (Elt F) → (⟨S1x128, .f32⟩ : BufTy).Contents (Elt F)),
    unary main_v38 main_v39 (broadcastInDim S524288x128 ![0, 1] bcast_S1x128_S524288x128_0_1 : (⟨S1x128, .f32⟩ : BufTy).Contents (Elt F) → (⟨S524288x128, .f32⟩ : BufTy).Contents (Elt F)),
    binary main_v37 main_v39 main_v40 (addf : (⟨S524288x128, .f32⟩ : BufTy).Contents (Elt F) → (⟨S524288x128, .f32⟩ : BufTy).Contents (Elt F) → (⟨S524288x128, .f32⟩ : BufTy).Contents (Elt F)),
    TRef.nullary main_call3.cst (constant S_ .f32 0x00000000#32),
    TRef.unary main_call3.cst main_call3.v0 (broadcastInDim S524288x128 ![] bcast_S_S524288x128),
    TRef.binary (.of main_v40 : StableHlo.TRef sig ⟨S524288x128, .f32⟩) main_call3.v0 main_call3.v1 maximumf,
    binary main_arg7 main_v24 main_v42 (mulf : (⟨S64x128, .f32⟩ : BufTy).Contents (Elt F) → (⟨S64x128, .f32⟩ : BufTy).Contents (Elt F) → (⟨S64x128, .f32⟩ : BufTy).Contents (Elt F)),
    unary main_v42 main_v43 ((transpose S128x64 [1, 0] · transposes_S64x128_S128x64_1_0) : (⟨S64x128, .f32⟩ : BufTy).Contents (Elt F) → (⟨S128x64, .f32⟩ : BufTy).Contents (Elt F)),
    binary main_v41 main_v43 main_v44 ((fun l r => Host.dotGeneral dot_S524288x128_S128x64_S524288x64_1_0_0_1_n_n none l r) : (⟨S524288x128, .f32⟩ : BufTy).Contents (Elt F) → (⟨S128x64, .f32⟩ : BufTy).Contents (Elt F) → (⟨S524288x64, .f32⟩ : BufTy).Contents (Elt F)),
    unary main_arg8 main_v45 (broadcastInDim S1x64 ![1] bcast_S64_S1x64_1 : (⟨S64, .f32⟩ : BufTy).Contents (Elt F) → (⟨S1x64, .f32⟩ : BufTy).Contents (Elt F)),
    unary main_v45 main_v46 (broadcastInDim S524288x64 ![0, 1] bcast_S1x64_S524288x64_0_1 : (⟨S1x64, .f32⟩ : BufTy).Contents (Elt F) → (⟨S524288x64, .f32⟩ : BufTy).Contents (Elt F)),
    binary main_v44 main_v46 main_v47 (addf : (⟨S524288x64, .f32⟩ : BufTy).Contents (Elt F) → (⟨S524288x64, .f32⟩ : BufTy).Contents (Elt F) → (⟨S524288x64, .f32⟩ : BufTy).Contents (Elt F)),
    unary main_v47 main_v48 ((extractStridedSlice S524288x32 ![0, 0] · slices_S524288x64_S524288x32_0_0) : (⟨S524288x64, .f32⟩ : BufTy).Contents (Elt F) → (⟨S524288x32, .f32⟩ : BufTy).Contents (Elt F)),
    unary main_v47 main_v49 ((extractStridedSlice S524288x32 ![0, 32] · slices_S524288x64_S524288x32_0_32) : (⟨S524288x64, .f32⟩ : BufTy).Contents (Elt F) → (⟨S524288x32, .f32⟩ : BufTy).Contents (Elt F)),
    nullary main_cst (constant S_ .f32 0xC0A00000#32),
    nullary main_cst_2 (constant S_ .f32 0x40A00000#32),
    TRef.unary (.of main_cst : StableHlo.TRef sig ⟨S_, .f32⟩) main_call4.v0 id,
    TRef.unary main_call4.v0 main_call4.v1 (broadcastInDim S524288x32 ![] bcast_S_S524288x32),
    TRef.binary main_call4.v1 (.of main_v49 : StableHlo.TRef sig ⟨S524288x32, .f32⟩) main_call4.v2 maximumf,
    TRef.unary (.of main_cst_2 : StableHlo.TRef sig ⟨S_, .f32⟩) main_call4.v3 id,
    TRef.unary main_call4.v3 main_call4.v4 (broadcastInDim S524288x32 ![] bcast_S_S524288x32),
    TRef.binary main_call4.v4 main_call4.v2 main_call4.v5 minimumf,
    binary main_arg0 main_v48 main_v51 (subf : (⟨S524288x32, .f32⟩ : BufTy).Contents (Elt F) → (⟨S524288x32, .f32⟩ : BufTy).Contents (Elt F) → (⟨S524288x32, .f32⟩ : BufTy).Contents (Elt F)),
    unary main_v50 main_v52 (Host.negf : (⟨S524288x32, .f32⟩ : BufTy).Contents (Elt F) → (⟨S524288x32, .f32⟩ : BufTy).Contents (Elt F)),
    unary main_v52 main_v53 (Host.exp : (⟨S524288x32, .f32⟩ : BufTy).Contents (Elt F) → (⟨S524288x32, .f32⟩ : BufTy).Contents (Elt F)),
    binary main_v51 main_v53 main_v54 (mulf : (⟨S524288x32, .f32⟩ : BufTy).Contents (Elt F) → (⟨S524288x32, .f32⟩ : BufTy).Contents (Elt F) → (⟨S524288x32, .f32⟩ : BufTy).Contents (Elt F)),
    nullary main_cst_3 (constant S_ .f32 0x00000000#32),
    binary main_v50 main_cst_3 main_v55 ((fun x v => Host.reduceAdd x v reducesTo_S524288x32_S524288_d1 h_S_) : (⟨S524288x32, .f32⟩ : BufTy).Contents (Elt F) → (⟨S_, .f32⟩ : BufTy).Contents (Elt F) → (⟨S524288, .f32⟩ : BufTy).Contents (Elt F)),
    unary main_v55 main_v56 (broadcastInDim S524288x1 ![0] bcast_S524288_S524288x1_0 : (⟨S524288, .f32⟩ : BufTy).Contents (Elt F) → (⟨S524288x1, .f32⟩ : BufTy).Contents (Elt F)),
    unary main_v56 main_v57 (Host.negf : (⟨S524288x1, .f32⟩ : BufTy).Contents (Elt F) → (⟨S524288x1, .f32⟩ : BufTy).Contents (Elt F)) ]

/-- The whole line: the masks' operations, then the layers'. -/
abbrev ops : List (HloOp τ sig (Elt F)) := opsMasks ++ opsLayers

/-- The program is that line: each helper's body stands at its call over the call's buffers, and sequencing is
    associative. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem opsMasks_sub : (opsMasks : List (HloOp τ sig (Elt F))).Forall fun op => op.bufs ⊆ tcRefs τ sig :=
  ⟨nullary_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub ..⟩
theorem opsLayers_sub : (opsLayers : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., unary_bufs_sub ..⟩
theorem ops_sub : (ops : List (HloOp τ sig (Elt F))).Forall fun op => op.bufs ⊆ tcRefs τ sig :=
  List.forall_append.2 ⟨opsMasks_sub, opsLayers_sub⟩

/-- Every operation determines its result. -/
theorem opsMasks_fresh : ∀ op ∈ (opsMasks : List (HloOp τ sig (Elt F))), op.fresh = ∅ := by
  intro _ h; (repeat (cases h with | head => rfl | tail _ h => ?_)); exact nomatch h
theorem opsLayers_fresh : ∀ op ∈ (opsLayers : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h =>
  (List.mem_append.1 h).elim (opsMasks_fresh op) (opsLayers_fresh op)

/-- The fold of two lines one after the other is the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- On every device, for any float values, from any memory with zero counters: every weakly fair execution of the
    reference terminates, and every final state has each TensorCore buffer at the layers' fold over the masks' fold
    over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsLayers (after opsMasks (launchContents m c)) (b : DevRef τ sig) :=
  (θ_run defs _ _).mono (fun _ h c b => (h c b).trans (congrFun (after_app opsMasks opsLayers (launchContents m c)) _))
    (run_seq scopedRefs_eq scopedSems_eq defs main (fun _ => ops) main_eq (fun _ => ops_sub) m ρ (fun _ => ops_fresh))

end Cert.ReferenceIdeal.Run

end
-- ==== Proof.RefRun.lean ====
/-
  The reference's program run: a straight line of host operations, the outlined helpers (the two floor remainders, the
  two clamps at zero, the clamp of the log-scale) unfolded at their calls. Every weakly fair execution ends with the two
  results at the staged terms of Proof/RefTerm.lean applied to the arguments as launched, and the arguments unchanged.
-/
import proofs.«134623_j54829552501285_1_alg».proof.Proof.RefTerm
import proofs.«134623_j54829552501285_1_alg».proof.Proof.RefOps
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The masks' operations

After the first 68 operations the three mask buffers hold the staged masks, whatever the contents before, and no
argument buffer has been written. -/

theorem masks_v12 (V : Valuation τ sig (Elt F)) :
    after opsMasks V (main_v12 : DevRef τ sig) = Masks.maskIn := by
  after_results_simp
  rfl
theorem masks_v18 (V : Valuation τ sig (Elt F)) :
    after opsMasks V (main_v18 : DevRef τ sig) = Masks.maskHid := by
  after_results_simp
  rfl
theorem masks_v24 (V : Valuation τ sig (Elt F)) :
    after opsMasks V (main_v24 : DevRef τ sig) = Masks.maskOut := by
  after_results_simp
  rfl
theorem masks_arg0 (V : Valuation τ sig (Elt F)) :
    after opsMasks V (main_arg0 : DevRef τ sig) = V (main_arg0 : DevRef τ sig) := by
  after_results_simp
theorem masks_arg1 (V : Valuation τ sig (Elt F)) :
    after opsMasks V (main_arg1 : DevRef τ sig) = V (main_arg1 : DevRef τ sig) := by
  after_results_simp
theorem masks_arg2 (V : Valuation τ sig (Elt F)) :
    after opsMasks V (main_arg2 : DevRef τ sig) = V (main_arg2 : DevRef τ sig) := by
  after_results_simp
theorem masks_arg3 (V : Valuation τ sig (Elt F)) :
    after opsMasks V (main_arg3 : DevRef τ sig) = V (main_arg3 : DevRef τ sig) := by
  after_results_simp
theorem masks_arg4 (V : Valuation τ sig (Elt F)) :
    after opsMasks V (main_arg4 : DevRef τ sig) = V (main_arg4 : DevRef τ sig) := by
  after_results_simp
theorem masks_arg5 (V : Valuation τ sig (Elt F)) :
    after opsMasks V (main_arg5 : DevRef τ sig) = V (main_arg5 : DevRef τ sig) := by
  after_results_simp
theorem masks_arg6 (V : Valuation τ sig (Elt F)) :
    after opsMasks V (main_arg6 : DevRef τ sig) = V (main_arg6 : DevRef τ sig) := by
  after_results_simp
theorem masks_arg7 (V : Valuation τ sig (Elt F)) :
    after opsMasks V (main_arg7 : DevRef τ sig) = V (main_arg7 : DevRef τ sig) := by
  after_results_simp
theorem masks_arg8 (V : Valuation τ sig (Elt F)) :
    after opsMasks V (main_arg8 : DevRef τ sig) = V (main_arg8 : DevRef τ sig) := by
  after_results_simp

/-! ## The layers' operations

From contents whose three mask buffers hold the staged masks, the remaining 45 operations leave the two result buffers
at the staged terms of the argument buffers, and write no argument buffer. -/

theorem layers_v54 (W : Valuation τ sig (Elt F)) (h12 : W (main_v12 : DevRef τ sig) = Masks.maskIn)
    (h18 : W (main_v18 : DevRef τ sig) = Masks.maskHid) (h24 : W (main_v24 : DevRef τ sig) = Masks.maskOut) :
    after opsLayers W (main_v54 : DevRef τ sig) = Term.transformed (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) := by
  after_results_simp
  rw [h12, h18, h24]
  rfl
theorem layers_v57 (W : Valuation τ sig (Elt F)) (h12 : W (main_v12 : DevRef τ sig) = Masks.maskIn)
    (h18 : W (main_v18 : DevRef τ sig) = Masks.maskHid) (h24 : W (main_v24 : DevRef τ sig) = Masks.maskOut) :
    after opsLayers W (main_v57 : DevRef τ sig) = Term.logdet (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) := by
  after_results_simp
  rw [h12, h18, h24]
  rfl
theorem layers_arg0 (W : Valuation τ sig (Elt F)) :
    after opsLayers W (main_arg0 : DevRef τ sig) = W (main_arg0 : DevRef τ sig) := by
  after_results_simp
theorem layers_arg1 (W : Valuation τ sig (Elt F)) :
    after opsLayers W (main_arg1 : DevRef τ sig) = W (main_arg1 : DevRef τ sig) := by
  after_results_simp
theorem layers_arg2 (W : Valuation τ sig (Elt F)) :
    after opsLayers W (main_arg2 : DevRef τ sig) = W (main_arg2 : DevRef τ sig) := by
  after_results_simp
theorem layers_arg3 (W : Valuation τ sig (Elt F)) :
    after opsLayers W (main_arg3 : DevRef τ sig) = W (main_arg3 : DevRef τ sig) := by
  after_results_simp
theorem layers_arg4 (W : Valuation τ sig (Elt F)) :
    after opsLayers W (main_arg4 : DevRef τ sig) = W (main_arg4 : DevRef τ sig) := by
  after_results_simp
theorem layers_arg5 (W : Valuation τ sig (Elt F)) :
    after opsLayers W (main_arg5 : DevRef τ sig) = W (main_arg5 : DevRef τ sig) := by
  after_results_simp
theorem layers_arg6 (W : Valuation τ sig (Elt F)) :
    after opsLayers W (main_arg6 : DevRef τ sig) = W (main_arg6 : DevRef τ sig) := by
  after_results_simp
theorem layers_arg7 (W : Valuation τ sig (Elt F)) :
    after opsLayers W (main_arg7 : DevRef τ sig) = W (main_arg7 : DevRef τ sig) := by
  after_results_simp
theorem layers_arg8 (W : Valuation τ sig (Elt F)) :
    after opsLayers W (main_arg8 : DevRef τ sig) = W (main_arg8 : DevRef τ sig) := by
  after_results_simp

/-! ## The whole line -/

theorem read_v54 (V : Valuation τ sig (Elt F)) :
    after opsLayers (after opsMasks V) (main_v54 : DevRef τ sig) = Term.transformed (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [layers_v54 _ (masks_v12 V) (masks_v18 V) (masks_v24 V), masks_arg0 V, masks_arg1 V, masks_arg2 V, masks_arg3 V, masks_arg4 V, masks_arg5 V, masks_arg6 V, masks_arg7 V, masks_arg8 V]
theorem read_v57 (V : Valuation τ sig (Elt F)) :
    after opsLayers (after opsMasks V) (main_v57 : DevRef τ sig) = Term.logdet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [layers_v57 _ (masks_v12 V) (masks_v18 V) (masks_v24 V), masks_arg0 V, masks_arg1 V, masks_arg2 V, masks_arg3 V, masks_arg4 V, masks_arg5 V, masks_arg6 V, masks_arg7 V, masks_arg8 V]

/-- On every device, for any float values, from any memory with zero counters: every weakly fair execution of the
    reference terminates with the transformed batch and the log-determinants at their staged terms of the arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = Cert.ReferenceIdeal.Term.transformed (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
      ∧ r.2.mem ((c.tc : Thread nD τ).loc main_v57)
        = Cert.ReferenceIdeal.Term.logdet (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v54).trans (read_v54 _), (h c main_v57).trans (read_v57 _),
      (h c main_arg0).trans ((layers_arg0 _).trans (masks_arg0 _)),
      (h c main_arg1).trans ((layers_arg1 _).trans (masks_arg1 _)),
      (h c main_arg2).trans ((layers_arg2 _).trans (masks_arg2 _)),
      (h c main_arg3).trans ((layers_arg3 _).trans (masks_arg3 _)),
      (h c main_arg4).trans ((layers_arg4 _).trans (masks_arg4 _)),
      (h c main_arg5).trans ((layers_arg5 _).trans (masks_arg5 _)),
      (h c main_arg6).trans ((layers_arg6 _).trans (masks_arg6 _)),
      (h c main_arg7).trans ((layers_arg7 _).trans (masks_arg7 _)),
      (h c main_arg8).trans ((layers_arg8 _).trans (masks_arg8 _))⟩)
    (run_main m ρ)

end Cert.ReferenceIdeal.Run

end
-- ==== Proof.RefRead.lean ====
/-
  The reference's staged terms, read entry by entry at the exact instance, are the flow step of Proof/Flow.lean: a host
  matrix product against a transposed matrix is, at row `r` and unit `j`, the sum over `k` of `x r k · W j k`; a bias
  broadcast over the rows reads its entry `j`; the column slices read columns `j` and `32 + j`; the host's negation is
  `-`, its exponential the exponential, its row sum the sum of the row's 32 entries after the initial zero. The first
  layer adds the bias before the conditioning product where the flow step adds it after: addition of extended reals is
  commutative and associative, so the two agree everywhere.
-/
import proofs.«134623_j54829552501285_1_alg».proof.Proof.RefTerm
import proofs.«134623_j54829552501285_1_alg».proof.Proof.Flow
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Read

open Cert.ReferenceIdeal Cert.ReferenceIdeal.Gen Cert.ReferenceIdeal.Masks Idealize.ShloMosaic Idealize.ShloMosaic.TcCoe Idealize.ShloMosaic.ValueIdx
open Cert.ReferenceIdeal.Term

/-- A product of a batch of rows with a transposed matrix, at row r and unit j: the sum over the one contracted
    coordinate of the row's entry times the matrix's entry at (j, k). The four hypotheses read the two operand indices
    of the product by their coordinates. -/
theorem dot_read {B K N : Nat} (d : DotDims ⟨2, ![B, K]⟩ ⟨2, ![K, N]⟩ ⟨2, ![B, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (h : FVec Ideal ⟨2, ![B, K]⟩ .f32) (M : FVec Ideal ⟨2, ![N, K]⟩ .f32)
    (ht : (⟨2, ![N, K]⟩ : Shape).Transposes [1, 0] ⟨2, ![K, N]⟩) (r : Fin B) (j : Fin N) :
    Host.dotGeneral (F := Ideal) d none h (transpose ⟨2, ![K, N]⟩ [1, 0] M ht) (ix2 r j)
      = Cert.Flow.lin (Cert.Flow.row h r) (fun k => M (ix2 j k)) := by
  simp only [Host.dotGeneral]
  rw [Ideal.dotGeneral_apply]
  unfold Cert.Flow.lin Cert.Flow.row
  rw [← Equiv.sum_comp (contrEquiv1 d K hr hs).symm]
  refine Finset.sum_congr rfl fun k _ => ?_
  have e0 := contrEquiv1_symm_val d K hr hs k
  have hl : d.lhsIdx (ix2 r j) ((contrEquiv1 d K hr hs).symm k) = ix2 r k := by
    funext a
    match a with
    | ⟨0, _⟩ => exact Fin.ext (hl0 _ _)
    | ⟨1, _⟩ => exact Fin.ext ((hl1 _ _).trans e0)
  have hrr : d.rhsIdx (ix2 r j) ((contrEquiv1 d K hr hs).symm k) = ix2 k j := by
    funext a
    match a with
    | ⟨0, _⟩ => exact Fin.ext ((hr0 _ _).trans e0)
    | ⟨1, _⟩ => exact Fin.ext (hr1 _ _)
  rw [hl, hrr, transpose_ix2_apply]

/-- The first layer's product of the rows of x with the masked first matrix. -/
theorem dot_x (h : FVec Ideal S524288x32 .f32) (M : FVec Ideal S128x32 .f32) (r : Fin 524288) (j : Fin 128) :
    Host.dotGeneral (F := Ideal) dot_S524288x32_S32x128_S524288x128_1_0_0_1_n_n none h
        (transpose S32x128 [1, 0] M transposes_S128x32_S32x128_1_0) (ix2 r j)
      = Cert.Flow.lin (Cert.Flow.row h r) (fun k => M (ix2 j k)) :=
  dot_read dot_S524288x32_S32x128_S524288x128_1_0_0_1_n_n rfl rfl (fun _ _ => rfl)
    (fun j k => DotDims.lhsIdx_val_of_single _ rfl j k) (fun j k => DotDims.rhsIdx_val_of_single _ rfl j k) (fun _ _ => rfl) h M _ r j

/-- The first layer's product of the rows of the conditioning array with its matrix. -/
theorem dot_c (h : FVec Ideal S524288x64 .f32) (M : FVec Ideal S128x64 .f32) (r : Fin 524288) (j : Fin 128) :
    Host.dotGeneral (F := Ideal) dot_S524288x64_S64x128_S524288x128_1_0_0_1_n_n none h
        (transpose S64x128 [1, 0] M transposes_S128x64_S64x128_1_0) (ix2 r j)
      = Cert.Flow.lin (Cert.Flow.row h r) (fun k => M (ix2 j k)) :=
  dot_read dot_S524288x64_S64x128_S524288x128_1_0_0_1_n_n rfl rfl (fun _ _ => rfl)
    (fun j k => DotDims.lhsIdx_val_of_single _ rfl j k) (fun j k => DotDims.rhsIdx_val_of_single _ rfl j k) (fun _ _ => rfl) h M _ r j

/-- The second layer's product. -/
theorem dot_h (h : FVec Ideal S524288x128 .f32) (M : FVec Ideal S128x128 .f32) (r : Fin 524288) (j : Fin 128) :
    Host.dotGeneral (F := Ideal) dot_S524288x128_S128x128_S524288x128_1_0_0_1_n_n none h
        (transpose S128x128 [1, 0] M transposes_S128x128_S128x128_1_0) (ix2 r j)
      = Cert.Flow.lin (Cert.Flow.row h r) (fun k => M (ix2 j k)) :=
  dot_read dot_S524288x128_S128x128_S524288x128_1_0_0_1_n_n rfl rfl (fun _ _ => rfl)
    (fun j k => DotDims.lhsIdx_val_of_single _ rfl j k) (fun j k => DotDims.rhsIdx_val_of_single _ rfl j k) (fun _ _ => rfl) h M _ r j

/-- The output layer's product. -/
theorem dot_o (h : FVec Ideal S524288x128 .f32) (M : FVec Ideal S64x128 .f32) (r : Fin 524288) (j : Fin 64) :
    Host.dotGeneral (F := Ideal) dot_S524288x128_S128x64_S524288x64_1_0_0_1_n_n none h
        (transpose S128x64 [1, 0] M transposes_S64x128_S128x64_1_0) (ix2 r j)
      = Cert.Flow.lin (Cert.Flow.row h r) (fun k => M (ix2 j k)) :=
  dot_read dot_S524288x128_S128x64_S524288x64_1_0_0_1_n_n rfl rfl (fun _ _ => rfl)
    (fun j k => DotDims.lhsIdx_val_of_single _ rfl j k) (fun j k => DotDims.rhsIdx_val_of_single _ rfl j k) (fun _ _ => rfl) h M _ r j

/-- A bias, made a one-row matrix and then repeated over the rows, reads its entry at the unit. -/
theorem bias_read {B N : Nat} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![B, N]⟩ (![0, 1] : Fin 2 → Fin 2)) (r : Fin B) (j : Fin N) :
    broadcastInDim ⟨2, ![B, N]⟩ ![0, 1] h2 (broadcastInDim ⟨2, ![1, N]⟩ ![1] h1 b) (ix2 r j) = b (ix1 j) := by
  have hj := j.isLt
  refine (broadcastInDim_apply _ h2 _ (ix2 r j) (ix2 (0 : Fin 1) j) fun a => ?_).trans ?_
  · match a with
    | ⟨0, _⟩ => rfl
    | ⟨1, _⟩ =>
      show j.val = if N = 1 then 0 else j.val
      split <;> omega
  · refine broadcastInDim_apply _ h1 _ (ix2 (0 : Fin 1) j) (ix1 j) fun a => ?_
    match a with
    | ⟨0, _⟩ =>
      show j.val = if N = 1 then 0 else j.val
      split <;> omega

/-- A scalar repeated over a whole array reads the scalar. -/
theorem scalar_read {t : Shape} (dims : Fin 0 → Fin t.rank) (h : (⟨0, ![]⟩ : Shape).BroadcastsInDim t dims)
    (c : FVec Ideal ⟨0, ![]⟩ .f32) (i : t.Idx) : broadcastInDim t dims h c i = c ix0 :=
  broadcastInDim_apply dims h c i ix0 fun a => a.elim0

/-- A clamp below at zero, at an entry. -/
theorem relu_read (v : FVec Ideal S524288x128 .f32) (i : S524288x128.Idx) : relu (F := Ideal) v i = max (v i) 0 := by
  unfold relu
  rw [maximumf_apply, scalar_read, constant_apply, Ideal.ofBits_zero_f32]

/-- The first hidden layer at row r and unit j: the reference adds the bias before the conditioning product, the flow
    step after; addition is commutative and associative. -/
theorem hidden1_read (x : FVec Ideal S524288x32 .f32) (cond : FVec Ideal S524288x64 .f32) (W1 : FVec Ideal S128x32 .f32)
    (b1 : FVec Ideal S128 .f32) (Wc : FVec Ideal S128x64 .f32) (θ : Cert.Flow.Weights)
    (hW1 : θ.W1 = fun j k => (mulf W1 maskIn) (ix2 j k)) (hWc : θ.Wc = fun j k => Wc (ix2 j k))
    (hb1 : θ.b1 = fun j => b1 (ix1 j)) (r : Fin 524288) (j : Fin 128) :
    hidden1 (F := Ideal) x cond W1 b1 Wc (ix2 r j) = Cert.Flow.hid1 θ (Cert.Flow.row x r) (Cert.Flow.row cond r) j := by
  unfold hidden1 Cert.Flow.hid1
  rw [relu_read, addf_apply, addf_apply, dot_x, dot_c, bias_read, hW1, hWc, hb1, add_right_comm]

/-- The second hidden layer at row r and unit j, of whatever the first layer's array is. -/
theorem hidden2_read (h : FVec Ideal S524288x128 .f32) (W2 : FVec Ideal S128x128 .f32) (b2 : FVec Ideal S128 .f32)
    (θ : Cert.Flow.Weights) (hW2 : θ.W2 = fun j k => (mulf W2 maskHid) (ix2 j k)) (hb2 : θ.b2 = fun j => b2 (ix1 j))
    (r : Fin 524288) (j : Fin 128) :
    hidden2 (F := Ideal) h W2 b2 (ix2 r j) = Cert.Flow.hid2 θ (Cert.Flow.row h r) j := by
  unfold hidden2 Cert.Flow.hid2
  rw [relu_read, addf_apply, dot_h, bias_read, hW2, hb2]

/-- The output layer at row r and output j, of whatever the second layer's array is. -/
theorem output_read (h : FVec Ideal S524288x128 .f32) (W3 : FVec Ideal S64x128 .f32) (b3 : FVec Ideal S64 .f32)
    (θ : Cert.Flow.Weights) (hW3 : θ.W3 = fun j k => (mulf W3 maskOut) (ix2 j k)) (hb3 : θ.b3 = fun j => b3 (ix1 j))
    (r : Fin 524288) (j : Fin 64) :
    output (F := Ideal) h W3 b3 (ix2 r j) = Cert.Flow.outv θ (Cert.Flow.row h r) j := by
  unfold output Cert.Flow.outv
  rw [addf_apply, dot_o, bias_read, hW3, hb3]

/-- The three layers composed: row r of the reference's output array is the flow step's output of row r. The second
    and the output layer read the layer before at every unit of the row, so the layers are rewritten row by row. -/
theorem outAll_row (x : FVec Ideal S524288x32 .f32) (cond : FVec Ideal S524288x64 .f32) (W1 : FVec Ideal S128x32 .f32)
    (b1 : FVec Ideal S128 .f32) (Wc : FVec Ideal S128x64 .f32) (W2 : FVec Ideal S128x128 .f32) (b2 : FVec Ideal S128 .f32)
    (W3 : FVec Ideal S64x128 .f32) (b3 : FVec Ideal S64 .f32) (θ : Cert.Flow.Weights)
    (hW1 : θ.W1 = fun j k => (mulf W1 maskIn) (ix2 j k)) (hWc : θ.Wc = fun j k => Wc (ix2 j k))
    (hb1 : θ.b1 = fun j => b1 (ix1 j))
    (hW2 : θ.W2 = fun j k => (mulf W2 maskHid) (ix2 j k)) (hb2 : θ.b2 = fun j => b2 (ix1 j))
    (hW3 : θ.W3 = fun j k => (mulf W3 maskOut) (ix2 j k)) (hb3 : θ.b3 = fun j => b3 (ix1 j)) (r : Fin 524288) :
    Cert.Flow.row (outAll (F := Ideal) x cond W1 b1 Wc W2 b2 W3 b3) r
      = Cert.Flow.outRow θ (Cert.Flow.row x r) (Cert.Flow.row cond r) := by
  have e1 : Cert.Flow.row (hidden1 (F := Ideal) x cond W1 b1 Wc) r = Cert.Flow.hid1 θ (Cert.Flow.row x r) (Cert.Flow.row cond r) :=
    funext fun j => hidden1_read x cond W1 b1 Wc θ hW1 hWc hb1 r j
  have e2 : Cert.Flow.row (hidden2 (F := Ideal) (hidden1 x cond W1 b1 Wc) W2 b2) r
      = Cert.Flow.hid2 θ (Cert.Flow.hid1 θ (Cert.Flow.row x r) (Cert.Flow.row cond r)) :=
    funext fun j => (hidden2_read _ W2 b2 θ hW2 hb2 r j).trans (by rw [e1])
  funext j
  unfold outAll Cert.Flow.outRow
  exact (output_read _ W3 b3 θ hW3 hb3 r j).trans (by rw [e2])

/-- The shift at row r and entry q: the output's column q. -/
theorem shiftOf_read (o : FVec Ideal S524288x64 .f32) (r : Fin 524288) (q : Fin 32) :
    shiftOf (F := Ideal) o (ix2 r q) = Cert.Flow.shift (Cert.Flow.row o r) q := by
  unfold shiftOf Cert.Flow.shift Cert.Flow.row
  exact slice2_axis1_apply 0 o _ r q ⟨q.val, by omega⟩ (Nat.zero_add _).symm

/-- The clamped log-scale at row r and entry q: the output's column 32 + q between the two literals. -/
theorem scaleOf_read (o : FVec Ideal S524288x64 .f32) (θ : Cert.Flow.Weights)
    (hlo : θ.lo = Ideal.ofBits .f32 0xC0A00000#32) (hhi : θ.hi = Ideal.ofBits .f32 0x40A00000#32)
    (r : Fin 524288) (q : Fin 32) :
    scaleOf (F := Ideal) o (ix2 r q) = Cert.Flow.scale θ (Cert.Flow.row o r) q := by
  unfold scaleOf Cert.Flow.scale Cert.Flow.row
  rw [minimumf_apply, maximumf_apply, scalar_read, scalar_read, hlo, hhi,
    slice2_axis1_apply 32 o _ r q ⟨32 + q.val, by omega⟩ rfl]
  rfl

/-- A row sum of a 32-column array, from the initial zero, made a column and negated: at (r, c), minus the sum of row r. -/
theorem negRowSum_read (s : FVec Ideal S524288x32 .f32) (r : Fin 524288) (c : Fin 1) :
    Host.negf (F := Ideal) (broadcastInDim S524288x1 ![0] bcast_S524288_S524288x1_0
      (Host.reduceAdd s (constant S_ .f32 0x00000000#32) reducesTo_S524288x32_S524288_d1 h_S_)) (ix2 r c)
      = -(∑ q : Fin 32, s (ix2 r q)) := by
  have hR : S524288x32.Reduces [1] S524288 := by decide
  show -(broadcastInDim S524288x1 ![0] bcast_S524288_S524288x1_0
      (Host.reduceAdd s (constant S_ .f32 0x00000000#32) reducesTo_S524288x32_S524288_d1 h_S_) (ix2 r c)) = _
  refine congrArg (fun t => -t) ?_
  refine (broadcastInDim_apply _ bcast_S524288_S524288x1_0 _ (ix2 r c) (ix1 r) fun a => ?_).trans ?_
  · match a with
    | ⟨0, _⟩ => rfl
  · unfold Host.reduceAdd
    refine (Ideal.hostReduceAdd_single reducesTo_S524288x32_S524288_d1 hR s _ (ix1 r)).trans ?_
    rw [constant_apply, Ideal.ofBits_zero_f32, zero_add]
    refine Finset.sum_congr rfl fun q _ => congrArg s (funext fun a => ?_)
    match a with
    | ⟨0, _⟩ => rfl
    | ⟨1, _⟩ => rfl

/-- The weights as the reference uses them: each matrix times its mask, each bias by its one coordinate, the log-scale's
    bounds the two literals. -/
def refWeights (W1 : FVec Ideal S128x32 .f32) (b1 : FVec Ideal S128 .f32) (Wc : FVec Ideal S128x64 .f32)
    (W2 : FVec Ideal S128x128 .f32) (b2 : FVec Ideal S128 .f32) (W3 : FVec Ideal S64x128 .f32) (b3 : FVec Ideal S64 .f32) :
    Cert.Flow.Weights :=
  Cert.Flow.weightsOf (mulf W1 maskIn) Wc (fun j => b1 (ix1 j)) (mulf W2 maskHid) (fun j => b2 (ix1 j)) (mulf W3 maskOut)
    (fun j => b3 (ix1 j)) (Ideal.ofBits .f32 0xC0A00000#32) (Ideal.ofBits .f32 0x40A00000#32)

/-- Row r of the reference's output array, at the reference's weights. -/
theorem outAll_row_ref (x : FVec Ideal S524288x32 .f32) (cond : FVec Ideal S524288x64 .f32) (W1 : FVec Ideal S128x32 .f32)
    (b1 : FVec Ideal S128 .f32) (Wc : FVec Ideal S128x64 .f32) (W2 : FVec Ideal S128x128 .f32) (b2 : FVec Ideal S128 .f32)
    (W3 : FVec Ideal S64x128 .f32) (b3 : FVec Ideal S64 .f32) (r : Fin 524288) :
    Cert.Flow.row (outAll (F := Ideal) x cond W1 b1 Wc W2 b2 W3 b3) r
      = Cert.Flow.outRow (refWeights W1 b1 Wc W2 b2 W3 b3) (Cert.Flow.row x r) (Cert.Flow.row cond r) :=
  outAll_row x cond W1 b1 Wc W2 b2 W3 b3 (refWeights W1 b1 Wc W2 b2 W3 b3) rfl rfl rfl rfl rfl rfl rfl r

/-- The reference's first result is the transformed batch of the flow step. -/
theorem transformed_eq (x : FVec Ideal S524288x32 .f32) (cond : FVec Ideal S524288x64 .f32) (W1 : FVec Ideal S128x32 .f32)
    (b1 : FVec Ideal S128 .f32) (Wc : FVec Ideal S128x64 .f32) (W2 : FVec Ideal S128x128 .f32) (b2 : FVec Ideal S128 .f32)
    (W3 : FVec Ideal S64x128 .f32) (b3 : FVec Ideal S64 .f32) :
    Cert.ReferenceIdeal.Term.transformed (F := Ideal) x cond W1 b1 Wc W2 b2 W3 b3
      = Cert.Flow.U (refWeights W1 b1 Wc W2 b2 W3 b3) x cond := by
  funext i
  obtain ⟨r, q, rfl⟩ : ∃ (r : Fin 524288) (q : Fin 32), i = ix2 r q := ⟨i 0, i 1, eq_ix2 i⟩
  rw [Cert.Flow.U_apply]
  unfold Cert.ReferenceIdeal.Term.transformed Cert.Flow.uRow
  rw [mulf_apply, subf_apply]
  show (x (ix2 r q) - shiftOf (outAll x cond W1 b1 Wc W2 b2 W3 b3) (ix2 r q))
      * Ideal.exp (-(scaleOf (outAll x cond W1 b1 Wc W2 b2 W3 b3) (ix2 r q))) = _
  rw [shiftOf_read, scaleOf_read _ (refWeights W1 b1 Wc W2 b2 W3 b3) rfl rfl, outAll_row_ref]
  rfl

/-- The reference's second result is the flow step's log-determinants. -/
theorem logdet_eq (x : FVec Ideal S524288x32 .f32) (cond : FVec Ideal S524288x64 .f32) (W1 : FVec Ideal S128x32 .f32)
    (b1 : FVec Ideal S128 .f32) (Wc : FVec Ideal S128x64 .f32) (W2 : FVec Ideal S128x128 .f32) (b2 : FVec Ideal S128 .f32)
    (W3 : FVec Ideal S64x128 .f32) (b3 : FVec Ideal S64 .f32) :
    Cert.ReferenceIdeal.Term.logdet (F := Ideal) x cond W1 b1 Wc W2 b2 W3 b3
      = Cert.Flow.L (refWeights W1 b1 Wc W2 b2 W3 b3) x cond := by
  funext i
  obtain ⟨r, c, rfl⟩ : ∃ (r : Fin 524288) (c : Fin 1), i = ix2 r c := ⟨i 0, i 1, eq_ix2 i⟩
  rw [Cert.Flow.L_apply]
  unfold Cert.ReferenceIdeal.Term.logdet Cert.Flow.ldRow
  rw [negRowSum_read]
  refine congrArg (fun t => -t) (Finset.sum_congr rfl fun q _ => ?_)
  rw [scaleOf_read _ (refWeights W1 b1 Wc W2 b2 W3 b3) rfl rfl, outAll_row_ref]

end Cert.ReferenceIdeal.Read

end
-- ==== Proof.MasksAgree.lean ====
/-
  The kernel's program and the reference build the three masks with the same host operations on the same constants, so
  the masks are the same arrays, whatever the float values are: each side's definitions unfold to one term.
-/
import proofs.«134623_j54829552501285_1_alg».proof.Proof.RefMasks
import proofs.«134623_j54829552501285_1_alg».proof.Proof.KernelMasks

noncomputable section

namespace Cert.MasksAgree

open Idealize.ShloMosaic

variable {F : FTy → Type} [FloatOps F]

theorem degHid_eq : Cert.KernelIdeal.Masks.degHid = Cert.ReferenceIdeal.Masks.degHid := rfl

theorem degOut_eq : Cert.KernelIdeal.Masks.degOut = Cert.ReferenceIdeal.Masks.degOut := rfl

theorem maskIn_eq : (Cert.KernelIdeal.Masks.maskIn (F := F)) = Cert.ReferenceIdeal.Masks.maskIn := rfl

theorem maskHid_eq : (Cert.KernelIdeal.Masks.maskHid (F := F)) = Cert.ReferenceIdeal.Masks.maskHid := rfl

theorem maskOut_eq : (Cert.KernelIdeal.Masks.maskOut (F := F)) = Cert.ReferenceIdeal.Masks.maskOut := rfl

end Cert.MasksAgree

end
-- ==== Proof.lean ====
/-
  The kernel computes one step of a masked autoregressive flow over a batch of 524288 rows, 4096 rows per grid point, with
  the three layers' matrix products on the matrix unit in a narrower float format; the reference computes the same step with
  jnp on the host. At the exact instance both are the row-by-row function of Proof/Flow.lean under the same weights:

  * the kernel's side: what a grid point leaves in its two output blocks, entry by entry (Proof/KernelPoint.lean), the 128
    points' blocks tiling the two result arrays (Proof/KernelArrays.lean), the masked matrices and one-row biases its program
    prepares on the host (Proof/KernelHost.lean);
  * the reference's side: its host operations run in order (Proof/RefRun.lean) to the staged terms of Proof/RefTerm.lean, which
    read entry by entry are the same function (Proof/RefRead.lean), the bias of the first layer added before the conditioning
    product instead of after it, which addition's commutativity and associativity absorb;
  * the two programs build the three masks with the same operations, so the masks are the same arrays (Proof/MasksAgree.lean).

  No step divides or cancels, so the inputs' finiteness is never used. The three frames are the generated frame runs, the
  reference's its run with the results dropped; the idealization rewrote no operation.
-/
import proofs.«134623_j54829552501285_1_alg».proof.Defs
import proofs.«134623_j54829552501285_1_alg».proof.Proof.Gen.Kernel
import proofs.«134623_j54829552501285_1_alg».proof.Proof.Gen.Kernel.Frame
import proofs.«134623_j54829552501285_1_alg».proof.Proof.Gen.KernelIdeal
import proofs.«134623_j54829552501285_1_alg».proof.Proof.Gen.KernelIdeal.Frame
import proofs.«134623_j54829552501285_1_alg».proof.Proof.Gen.ReferenceIdeal
import proofs.«134623_j54829552501285_1_alg».proof.Proof.Gen.Pre_finite_inputs
import proofs.«134623_j54829552501285_1_alg».proof.Proof.KernelArrays
import proofs.«134623_j54829552501285_1_alg».proof.Proof.RefRun
import proofs.«134623_j54829552501285_1_alg».proof.Proof.RefRead
import proofs.«134623_j54829552501285_1_alg».proof.Proof.MasksAgree
import Idealize.ShloMosaic.Adequacy
import Idealize.ShloMosaic.Init

noncomputable section

namespace Cert.Proof

open Idealize.ShloMosaic Idealize.ShloMosaic.TcCoe Idealize.SL.Sem

/-- The two programs' weights are the same: the same arguments against the same masks. -/
theorem weights_agree (W1 : FVec Ideal Cert.ReferenceIdeal.S128x32 .f32) (b1 : FVec Ideal Cert.ReferenceIdeal.S128 .f32)
    (Wc : FVec Ideal Cert.ReferenceIdeal.S128x64 .f32) (W2 : FVec Ideal Cert.ReferenceIdeal.S128x128 .f32)
    (b2 : FVec Ideal Cert.ReferenceIdeal.S128 .f32) (W3 : FVec Ideal Cert.ReferenceIdeal.S64x128 .f32)
    (b3 : FVec Ideal Cert.ReferenceIdeal.S64 .f32) :
    Cert.ReferenceIdeal.Read.refWeights W1 b1 Wc W2 b2 W3 b3 = Cert.KernelIdeal.Arrays.kerWeights W1 b1 Wc W2 b2 W3 b3 := by
  unfold Cert.ReferenceIdeal.Read.refWeights Cert.KernelIdeal.Arrays.kerWeights
  rw [Cert.MasksAgree.maskIn_eq, Cert.MasksAgree.maskHid_eq, Cert.MasksAgree.maskOut_eq]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Run.run (F := Ideal) m ρ)

/-- Both programs end with the flow step of the whole batch under the same weights. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Run.run (F := Ideal) m' ρ')
  · obtain ⟨h0, h1, h2, h3, h4, h5, h6, h7, h8⟩ := hagree c
    rw [Cert.ReferenceIdeal.Read.transformed_eq, weights_agree, h0, h1, h2, h3, h4, h5, h6, h7, h8]
  · obtain ⟨h0, h1, h2, h3, h4, h5, h6, h7, h8⟩ := hagree c
    rw [Cert.ReferenceIdeal.Read.logdet_eq, weights_agree, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
